-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S100000x128 : Shape := ⟨2, ![100000, 128]⟩
abbrev S50000x128 : Shape := ⟨2, ![50000, 128]⟩
abbrev S128x256 : Shape := ⟨2, ![128, 256]⟩
abbrev S128 : Shape := ⟨1, ![128]⟩
abbrev S256x256 : Shape := ⟨2, ![256, 256]⟩
abbrev S256 : Shape := ⟨1, ![256]⟩
abbrev S1000x256 : Shape := ⟨2, ![1000, 256]⟩
abbrev S1000 : Shape := ⟨1, ![1000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1000x256 : S_.BroadcastsInDim S1000x256 (![] : Fin 0 → Fin S1000x256.rank)
  reducesTo_S1000x256_S_d0_1 : S1000x256.ReducesTo [0, 1] S_
  bcast_S_S1000 : S_.BroadcastsInDim S1000 (![] : Fin 0 → Fin S1000.rank)
  reducesTo_S1000_S_d0 : S1000.ReducesTo [0] S_

variable [Facts]

def fn_part2 {F : FTy → Type} [FloatOps F] (main_arg11 : FVec F S1000 .f32) (main_v33 : IVec S_ 1) : IVec S_ 1 :=
  let main_v34 : FVec F S1000 .f32 := Host.absf main_arg11
  let main_cst_12 : FVec F S_ .f32 := constant S_ .f32 0x7F800000#32
  let main_v35 : FVec F S1000 .f32 := broadcastInDim S1000 ![] bcast_S_S1000 main_cst_12
  let main_v36 : IVec S1000 1 := cmpf .olt main_v34 main_v35
  let main_c_13 : IVec S_ 1 := constantI S_ 1 1#1
  let main_v37 : IVec S_ 1 := (fun x v => Host.reduce IntOp.andi x v reducesTo_S1000_S_d0 h_S_) main_v36 main_c_13
  let main_v38 : IVec S_ 1 := andi main_v33 main_v37
  main_v38

def fn_part1 {F : FTy → Type} [FloatOps F] (main_arg8 : FVec F S256x256 .f32) (main_arg9 : FVec F S256 .f32) (main_arg10 : FVec F S1000x256 .f32) (main_arg11 : FVec F S1000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1000x256 .f32 := Host.absf main_arg10
  let main_cst_10 : FVec F S_ .f32 := constant S_ .f32 0x7F800000#32
  let main_v30 : FVec F S1000x256 .f32 := broadcastInDim S1000x256 ![] bcast_S_S1000x256 main_cst_10
  let main_v31 : IVec S1000x256 1 := cmpf .olt main_v29 main_v30
  let main_c_11 : IVec S_ 1 := constantI S_ 1 1#1
  let main_v32 : IVec S_ 1 := (fun x v => Host.reduce IntOp.andi x v reducesTo_S1000x256_S_d0_1 h_S_) main_v31 main_c_11
  let main_v33 : IVec S_ 1 := andi main_v28 main_v32
  fn_part2 (F := F) main_arg11 main_v33

def fn {F : FTy → Type} [FloatOps F] (main_arg0 : IVec S16384x32 32) (main_arg1 : IVec S16384x32 32) (main_arg2 : IVec S16384x32 32) (main_arg3 : IVec S16384x32 32) (main_arg4 : FVec F S100000x128 .f32) (main_arg5 : FVec F S50000x128 .f32) (main_arg6 : FVec F S128x256 .f32) (main_arg7 : FVec F S128 .f32) (main_arg8 : FVec F S256x256 .f32) (main_arg9 : FVec F S256 .f32) (main_arg10 : FVec F S1000x256 .f32) (main_arg11 : FVec F S1000 .f32) : IVec S_ 1 :=
  let main_v0 : FVec F S100000x128 .f32 := Host.absf main_arg4
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg5
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_v13 main_v16
-- ==== Kernel.lean ====
abbrev S16384x32 : Shape := ⟨2, ![16384, 32]⟩
abbrev S100000x128 : Shape := ⟨2, ![100000, 128]⟩
abbrev S50000x128 : Shape := ⟨2, ![50000, 128]⟩
abbrev S128x256 : Shape := ⟨2, ![128, 256]⟩
abbrev S128 : Shape := ⟨1, ![128]⟩
abbrev S256x256 : Shape := ⟨2, ![256, 256]⟩
abbrev S256 : Shape := ⟨1, ![256]⟩
abbrev S1000x256 : Shape := ⟨2, ![1000, 256]⟩
abbrev S1000 : Shape := ⟨1, ![1000]⟩
abbrev S_ : Shape := ⟨0, ![]⟩
abbrev S16384x32x1 : Shape := ⟨3, ![16384, 32, 1]⟩
abbrev S1 : Shape := ⟨1, ![1]⟩
abbrev S1x1x1 : Shape := ⟨3, ![1, 1, 1]⟩
abbrev S16384x32x128 : Shape := ⟨3, ![16384, 32, 128]⟩
abbrev S16384x128 : Shape := ⟨2, ![16384, 128]⟩
abbrev S256x128 : Shape := ⟨2, ![256, 128]⟩
abbrev S256x1000 : Shape := ⟨2, ![256, 1000]⟩
abbrev S1x128 : Shape := ⟨2, ![1, 128]⟩
abbrev S1x256 : Shape := ⟨2, ![1, 256]⟩
abbrev S1x1000 : Shape := ⟨2, ![1, 1000]⟩
abbrev S16384x1000 : Shape := ⟨2, ![16384, 1000]⟩
abbrev S2048x128 : Shape := ⟨2, ![2048, 128]⟩
abbrev S2048x1000 : Shape := ⟨2, ![2048, 1000]⟩
abbrev S2048x256 : Shape := ⟨2, ![2048, 256]⟩

abbrev nBuf : Space → Nat
  | .hbm => 119
  | .vmem => 16
  | .smem => 0
  | _ => 0

abbrev bufTy : (tb : Table) → Fin (tcTables nBuf tb) → BufTy
  | .hbm, ⟨0, _⟩ => ⟨S16384x32, .i32⟩
  | .hbm, ⟨1, _⟩ => ⟨S16384x32, .i32⟩
  | .hbm, ⟨2, _⟩ => ⟨S16384x32, .i32⟩
  | .hbm, ⟨3, _⟩ => ⟨S16384x32, .i32⟩
  | .hbm, ⟨4, _⟩ => ⟨S100000x128, .f32⟩
  | .hbm, ⟨5, _⟩ => ⟨S50000x128, .f32⟩
  | .hbm, ⟨6, _⟩ => ⟨S128x256, .f32⟩
  | .hbm, ⟨7, _⟩ => ⟨S128, .f32⟩
  | .hbm, ⟨8, _⟩ => ⟨S256x256, .f32⟩
  | .hbm, ⟨9, _⟩ => ⟨S256, .f32⟩
  | .hbm, ⟨10, _⟩ => ⟨S1000x256, .f32⟩
  | .hbm, ⟨11, _⟩ => ⟨S1000, .f32⟩
  | .hbm, ⟨12, _⟩ => ⟨S_, .i32⟩
  | .hbm, ⟨13, _⟩ => ⟨S16384x32, .i32⟩
  | .hbm, ⟨14, _⟩ => ⟨S16384x32, .i1⟩
  | .hbm, ⟨15, _⟩ => ⟨S_, .i32⟩
  | .hbm, ⟨16, _⟩ => ⟨S16384x32, .i32⟩
  | .hbm, ⟨17, _⟩ => ⟨S16384x32, .i32⟩
  | .hbm, ⟨18, _⟩ => ⟨S16384x32, .i32⟩
  | .hbm, ⟨19, _⟩ => ⟨S16384x32x1, .i32⟩
  | .hbm, ⟨20, _⟩ => ⟨S1, .i32⟩
  | .hbm, ⟨21, _⟩ => ⟨S_, .i32⟩
  | .hbm, ⟨22, _⟩ => ⟨S16384x32x1, .i32⟩
  | .hbm, ⟨23, _⟩ => ⟨S16384x32x1, .i1⟩
  | .hbm, ⟨24, _⟩ => ⟨S1x1x1, .i32⟩
  | .hbm, ⟨25, _⟩ => ⟨S16384x32x1, .i32⟩
  | .hbm, ⟨26, _⟩ => ⟨S16384x32x1, .i1⟩
  | .hbm, ⟨27, _⟩ => ⟨S16384x32x1, .i1⟩
  | .hbm, ⟨28, _⟩ => ⟨S_, .i1⟩
  | .hbm, ⟨29, _⟩ => ⟨S16384x32, .i1⟩
  | .hbm, ⟨30, _⟩ => ⟨S16384x32x128, .f32⟩
  | .hbm, ⟨31, _⟩ => ⟨S16384x32x128, .i1⟩
  | .hbm, ⟨32, _⟩ => ⟨S_, .f32⟩
  | .hbm, ⟨33, _⟩ => ⟨S16384x32x128, .f32⟩
  | .hbm, ⟨34, _⟩ => ⟨S16384x32x128, .f32⟩
  | .hbm, ⟨35, _⟩ => ⟨S_, .f32⟩
  | .hbm, ⟨36, _⟩ => ⟨S16384x128, .f32⟩
  | .hbm, ⟨37, _⟩ => ⟨S_, .i32⟩
  | .hbm, ⟨38, _⟩ => ⟨S16384x32, .i32⟩
  | .hbm, ⟨39, _⟩ => ⟨S16384x32, .i1⟩
  | .hbm, ⟨40, _⟩ => ⟨S_, .i32⟩
  | .hbm, ⟨41, _⟩ => ⟨S16384x32, .i32⟩
  | .hbm, ⟨42, _⟩ => ⟨S16384x32, .i32⟩
  | .hbm, ⟨43, _⟩ => ⟨S16384x32, .i32⟩
  | .hbm, ⟨44, _⟩ => ⟨S16384x32x1, .i32⟩
  | .hbm, ⟨45, _⟩ => ⟨S1, .i32⟩
  | .hbm, ⟨46, _⟩ => ⟨S_, .i32⟩
  | .hbm, ⟨47, _⟩ => ⟨S16384x32x1, .i32⟩
  | .hbm, ⟨48, _⟩ => ⟨S16384x32x1, .i1⟩
  | .hbm, ⟨49, _⟩ => ⟨S1x1x1, .i32⟩
  | .hbm, ⟨50, _⟩ => ⟨S16384x32x1, .i32⟩
  | .hbm, ⟨51, _⟩ => ⟨S16384x32x1, .i1⟩
  | .hbm, ⟨52, _⟩ => ⟨S16384x32x1, .i1⟩
  | .hbm, ⟨53, _⟩ => ⟨S_, .i1⟩
  | .hbm, ⟨54, _⟩ => ⟨S16384x32, .i1⟩
  | .hbm, ⟨55, _⟩ => ⟨S16384x32x128, .f32⟩
  | .hbm, ⟨56, _⟩ => ⟨S16384x32x128, .i1⟩
  | .hbm, ⟨57, _⟩ => ⟨S_, .f32⟩
  | .hbm, ⟨58, _⟩ => ⟨S16384x32x128, .f32⟩
  | .hbm, ⟨59, _⟩ => ⟨S16384x32x128, .f32⟩
  | .hbm, ⟨60, _⟩ => ⟨S_, .f32⟩
  | .hbm, ⟨61, _⟩ => ⟨S16384x128, .f32⟩
  | .hbm, ⟨62, _⟩ => ⟨S_, .i32⟩
  | .hbm, ⟨63, _⟩ => ⟨S16384x32, .i32⟩
  | .hbm, ⟨64, _⟩ => ⟨S16384x32, .i1⟩
  | .hbm, ⟨65, _⟩ => ⟨S_, .i32⟩
  | .hbm, ⟨66, _⟩ => ⟨S16384x32, .i32⟩
  | .hbm, ⟨67, _⟩ => ⟨S16384x32, .i32⟩
  | .hbm, ⟨68, _⟩ => ⟨S16384x32, .i32⟩
  | .hbm, ⟨69, _⟩ => ⟨S16384x32x1, .i32⟩
  | .hbm, ⟨70, _⟩ => ⟨S1, .i32⟩
  | .hbm, ⟨71, _⟩ => ⟨S_, .i32⟩
  | .hbm, ⟨72, _⟩ => ⟨S16384x32x1, .i32⟩
  | .hbm, ⟨73, _⟩ => ⟨S16384x32x1, .i1⟩
  | .hbm, ⟨74, _⟩ => ⟨S1x1x1, .i32⟩
  | .hbm, ⟨75, _⟩ => ⟨S16384x32x1, .i32⟩
  | .hbm, ⟨76, _⟩ => ⟨S16384x32x1, .i1⟩
  | .hbm, ⟨77, _⟩ => ⟨S16384x32x1, .i1⟩
  | .hbm, ⟨78, _⟩ => ⟨S_, .i1⟩
  | .hbm, ⟨79, _⟩ => ⟨S16384x32, .i1⟩
  | .hbm, ⟨80, _⟩ => ⟨S16384x32x128, .f32⟩
  | .hbm, ⟨81, _⟩ => ⟨S16384x32x128, .i1⟩
  | .hbm, ⟨82, _⟩ => ⟨S_, .f32⟩
  | .hbm, ⟨83, _⟩ => ⟨S16384x32x128, .f32⟩
  | .hbm, ⟨84, _⟩ => ⟨S16384x32x128, .f32⟩
  | .hbm, ⟨85, _⟩ => ⟨S_, .f32⟩
  | .hbm, ⟨86, _⟩ => ⟨S16384x128, .f32⟩
  | .hbm, ⟨87, _⟩ => ⟨S_, .i32⟩
  | .hbm, ⟨88, _⟩ => ⟨S16384x32, .i32⟩
  | .hbm, ⟨89, _⟩ => ⟨S16384x32, .i1⟩
  | .hbm, ⟨90, _⟩ => ⟨S_, .i32⟩
  | .hbm, ⟨91, _⟩ => ⟨S16384x32, .i32⟩
  | .hbm, ⟨92, _⟩ => ⟨S16384x32, .i32⟩
  | .hbm, ⟨93, _⟩ => ⟨S16384x32, .i32⟩
  | .hbm, ⟨94, _⟩ => ⟨S16384x32x1, .i32⟩
  | .hbm, ⟨95, _⟩ => ⟨S1, .i32⟩
  | .hbm, ⟨96, _⟩ => ⟨S_, .i32⟩
  | .hbm, ⟨97, _⟩ => ⟨S16384x32x1, .i32⟩
  | .hbm, ⟨98, _⟩ => ⟨S16384x32x1, .i1⟩
  | .hbm, ⟨99, _⟩ => ⟨S1x1x1, .i32⟩
  | .hbm, ⟨100, _⟩ => ⟨S16384x32x1, .i32⟩
  | .hbm, ⟨101, _⟩ => ⟨S16384x32x1, .i1⟩
  | .hbm, ⟨102, _⟩ => ⟨S16384x32x1, .i1⟩
  | .hbm, ⟨103, _⟩ => ⟨S_, .i1⟩
  | .hbm, ⟨104, _⟩ => ⟨S16384x32, .i1⟩
  | .hbm, ⟨105, _⟩ => ⟨S16384x32x128, .f32⟩
  | .hbm, ⟨106, _⟩ => ⟨S16384x32x128, .i1⟩
  | .hbm, ⟨107, _⟩ => ⟨S_, .f32⟩
  | .hbm, ⟨108, _⟩ => ⟨S16384x32x128, .f32⟩
  | .hbm, ⟨109, _⟩ => ⟨S16384x32x128, .f32⟩
  | .hbm, ⟨110, _⟩ => ⟨S_, .f32⟩
  | .hbm, ⟨111, _⟩ => ⟨S16384x128, .f32⟩
  | .hbm, ⟨112, _⟩ => ⟨S256x128, .f32⟩
  | .hbm, ⟨113, _⟩ => ⟨S256x256, .f32⟩
  | .hbm, ⟨114, _⟩ => ⟨S256x1000, .f32⟩
  | .hbm, ⟨115, _⟩ => ⟨S1x128, .f32⟩
  | .hbm, ⟨116, _⟩ => ⟨S1x256, .f32⟩
  | .hbm, ⟨117, _⟩ => ⟨S1x1000, .f32⟩
  | .hbm, ⟨118, _⟩ => ⟨S16384x1000, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S256x128, .f32⟩
  | .local _ .vmem, ⟨9, _⟩ => ⟨S1x128, .f32⟩
  | .local _ .vmem, ⟨10, _⟩ => ⟨S256x256, .f32⟩
  | .local _ .vmem, ⟨11, _⟩ => ⟨S1x256, .f32⟩
  | .local _ .vmem, ⟨12, _⟩ => ⟨S256x1000, .f32⟩
  | .local _ .vmem, ⟨13, _⟩ => ⟨S1x1000, .f32⟩
  | .local _ .vmem, ⟨14, _⟩ => ⟨S2048x1000, .f32⟩
  | .local _ .vmem, ⟨15, _⟩ => ⟨S2048x1000, .f32⟩
  | _, _ => ⟨S16384x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v2 : Ref sig .tc := ⟨.hbm, 59, rfl⟩
abbrev main_cst_0 : Ref sig .tc := ⟨.hbm, 60, rfl⟩
abbrev main_v3 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v4 : Ref sig .tc := ⟨.hbm, 84, rfl⟩
abbrev main_cst_1 : Ref sig .tc := ⟨.hbm, 85, rfl⟩
abbrev main_v5 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v6 : Ref sig .tc := ⟨.hbm, 109, rfl⟩
abbrev main_cst_2 : Ref sig .tc := ⟨.hbm, 110, rfl⟩
abbrev main_v7 : Ref sig .tc := ⟨.hbm, 111, rfl⟩
abbrev main_v8 : Ref sig .tc := ⟨.hbm, 112, rfl⟩
abbrev main_v9 : Ref sig .tc := ⟨.hbm, 113, rfl⟩
abbrev main_v10 : Ref sig .tc := ⟨.hbm, 114, rfl⟩
abbrev main_v11 : Ref sig .tc := ⟨.hbm, 115, rfl⟩
abbrev main_v12 : Ref sig .tc := ⟨.hbm, 116, rfl⟩
abbrev main_v13 : Ref sig .tc := ⟨.hbm, 117, rfl⟩
abbrev main_v14 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x1000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S_S16384x32x1 : S_.BroadcastsInDim S16384x32x1 (![] : Fin 0 → Fin S16384x32x1.rank)
  bcast_S1_S1x1x1_2 : S1.BroadcastsInDim S1x1x1 (![2] : Fin 1 → Fin S1x1x1.rank)
  bcast_S1x1x1_S16384x32x1_0_1_2 : S1x1x1.BroadcastsInDim S16384x32x1 (![0, 1, 2] : Fin 3 → Fin S16384x32x1.rank)
  reducesTo_S16384x32x1_S16384x32_d2 : S16384x32x1.ReducesTo [2] S16384x32
  h_S_ : 0 < S_.numel
  bcast_S16384x32_S16384x32x128_0_1 : S16384x32.BroadcastsInDim S16384x32x128 (![0, 1] : Fin 2 → Fin S16384x32x128.rank)
  bcast_S_S16384x32x128 : S_.BroadcastsInDim S16384x32x128 (![] : Fin 0 → Fin S16384x32x128.rank)
  reducesTo_S16384x32x128_S16384x128_d1 : S16384x32x128.ReducesTo [1] S16384x128
  transposes_S128x256_S256x128_1_0 : S128x256.Transposes [1, 0] S256x128
  transposes_S256x256_S256x256_1_0 : S256x256.Transposes [1, 0] S256x256
  transposes_S1000x256_S256x1000_1_0 : S1000x256.Transposes [1, 0] S256x1000
  shapeCasts_S128_S1x128 : S128.ShapeCasts S1x128
  shapeCasts_S256_S1x256 : S256.ShapeCasts S1x256
  shapeCasts_S1000_S1x1000 : S1000.ShapeCasts S1x1000
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  concatenates_S2048x128_S2048x128_S2048x256_d1 : Shape.Concatenates [S2048x128, S2048x128] S2048x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x1000_S256x1000_0_0 : ∀ a, (![0, 0] : Fin 2 → Nat) a + S256x1000.size a ≤ S256x1000.size a
  h_S256x1000 : 0 < S256x1000.numel
  shapeCasts_S256x1000_S256x1000 : S256x1000.ShapeCasts S256x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S2048x1000 : S1x1000.Broadcasts S2048x1000
  inb_S2048x1000_S2048x1000_0_0 : ∀ a, (![0, 0] : Fin 2 → Nat) a + S2048x1000.size a ≤ S2048x1000.size a
  h_S2048x1000 : 0 < S2048x1000.numel
  gather_S100000x128_S16384x32x1_S16384x32x128_2_0_n_n_0_2_1128_wf : GatherDims.WF S100000x128 S16384x32x1 S16384x32x128 [2] [0] [] [0] [] 2 ![1, 128]
  gather_S50000x128_S16384x32x1_S16384x32x128_2_0_n_n_0_2_1128_wf : GatherDims.WF S50000x128 S16384x32x1 S16384x32x128 [2] [0] [] [0] [] 2 ![1, 128]
  dot_S2048x256_S256x128_S2048x128_1_0_0_1_n_n_wf : DotDims.WF S2048x256 S256x128 S2048x128 [1] [0] [0] [1] [] []
  dot_S2048x256_S256x256_S2048x256_1_0_0_1_n_n_wf : DotDims.WF S2048x256 S256x256 S2048x256 [1] [0] [0] [1] [] []
  dot_S2048x256_S256x1000_S2048x1000_1_0_0_1_n_n_wf : DotDims.WF S2048x256 S256x1000 S2048x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1000.size a ≤ S256x1000.size a
  hwx0_8 : ∀ i : grid0.Coords, EltTy.bits .f32 = 32 ∨ (Rect.block (s := S256x1000) S256x1000.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1000.size a ≤ S1x1000.size a
  hwx0_9 : ∀ i : grid0.Coords, EltTy.bits .f32 = 32 ∨ (Rect.block (s := S1x1000) S1x1000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x1000.size a ≤ S16384x1000.size a
  hwx0_10 : ∀ i : grid0.Coords, EltTy.bits .f32 = 32 ∨ (Rect.block (s := S16384x1000) S2048x1000.size (cc0_transform_10 i) (hinb0_10 i)).WholeWords (EltTy.packing .f32)

variable [Facts₀]

def gather_S100000x128_S16384x32x1_S16384x32x128_2_0_n_n_0_2_1128 : GatherDims S100000x128 S16384x32x1 S16384x32x128 where
  offsetDims := [2]
  collapsedSliceDims := [0]
  operandBatchingDims := []
  startIndicesBatchingDims := []
  startIndexMap := [0]
  indexVectorDim := 2
  sliceSizes := ![1, 128]
  wf := gather_S100000x128_S16384x32x1_S16384x32x128_2_0_n_n_0_2_1128_wf
def gather_S50000x128_S16384x32x1_S16384x32x128_2_0_n_n_0_2_1128 : GatherDims S50000x128 S16384x32x1 S16384x32x128 where
  offsetDims := [2]
  collapsedSliceDims := [0]
  operandBatchingDims := []
  startIndicesBatchingDims := []
  startIndexMap := [0]
  indexVectorDim := 2
  sliceSizes := ![1, 128]
  wf := gather_S50000x128_S16384x32x1_S16384x32x128_2_0_n_n_0_2_1128_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1000_S2048x1000_1_0_0_1_n_n : DotDims S2048x256 S256x1000 S2048x1000 where
  lhsContracting := [1]
  rhsContracting := [0]
  lhsNonContracting := [0]
  rhsNonContracting := [1]
  lhsBatch := []
  rhsBatch := []
  wf := dot_S2048x256_S256x1000_S2048x1000_1_0_0_1_n_n_wf

abbrev win0_0 : Pipeline.Window sig grid0 :=
  Pipeline.Window.ofSpec (Memref.whole main_v1) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S256x1000.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x1000.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S2048x1000.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x32 : Shape := ⟨2, ![16384, 32]⟩
abbrev S100000x128 : Shape := ⟨2, ![100000, 128]⟩
abbrev S50000x128 : Shape := ⟨2, ![50000, 128]⟩
abbrev S128x256 : Shape := ⟨2, ![128, 256]⟩
abbrev S128 : Shape := ⟨1, ![128]⟩
abbrev S256x256 : Shape := ⟨2, ![256, 256]⟩
abbrev S256 : Shape := ⟨1, ![256]⟩
abbrev S1000x256 : Shape := ⟨2, ![1000, 256]⟩
abbrev S1000 : Shape := ⟨1, ![1000]⟩
abbrev S_ : Shape := ⟨0, ![]⟩
abbrev S16384x32x1 : Shape := ⟨3, ![16384, 32, 1]⟩
abbrev S1 : Shape := ⟨1, ![1]⟩
abbrev S1x1x1 : Shape := ⟨3, ![1, 1, 1]⟩
abbrev S16384x32x128 : Shape := ⟨3, ![16384, 32, 128]⟩
abbrev S16384x128 : Shape := ⟨2, ![16384, 128]⟩
abbrev S16384x256 : Shape := ⟨2, ![16384, 256]⟩
abbrev S256x128 : Shape := ⟨2, ![256, 128]⟩
abbrev S1x128 : Shape := ⟨2, ![1, 128]⟩
abbrev S1x256 : Shape := ⟨2, ![1, 256]⟩
abbrev S256x1000 : Shape := ⟨2, ![256, 1000]⟩
abbrev S16384x1000 : Shape := ⟨2, ![16384, 1000]⟩
abbrev S1x1000 : Shape := ⟨2, ![1, 1000]⟩

abbrev nBuf : Space → Nat
  | .hbm => 146
  | .vmem => 0
  | .smem => 0
  | _ => 0

abbrev hbmTy0_0 (i : Nat) : BufTy := match i % 128 with
  | 0 => ⟨S16384x32, .i32⟩
  | 1 => ⟨S16384x32, .i32⟩
  | 2 => ⟨S16384x32, .i32⟩
  | 3 => ⟨S16384x32, .i32⟩
  | 4 => ⟨S100000x128, .f32⟩
  | 5 => ⟨S50000x128, .f32⟩
  | 6 => ⟨S128x256, .f32⟩
  | 7 => ⟨S128, .f32⟩
  | 8 => ⟨S256x256, .f32⟩
  | 9 => ⟨S256, .f32⟩
  | 10 => ⟨S1000x256, .f32⟩
  | 11 => ⟨S1000, .f32⟩
  | 12 => ⟨S_, .i32⟩
  | 13 => ⟨S16384x32, .i32⟩
  | 14 => ⟨S16384x32, .i1⟩
  | 15 => ⟨S_, .i32⟩
  | 16 => ⟨S16384x32, .i32⟩
  | 17 => ⟨S16384x32, .i32⟩
  | 18 => ⟨S16384x32, .i32⟩
  | 19 => ⟨S16384x32x1, .i32⟩
  | 20 => ⟨S1, .i32⟩
  | 21 => ⟨S_, .i32⟩
  | 22 => ⟨S16384x32x1, .i32⟩
  | 23 => ⟨S16384x32x1, .i1⟩
  | 24 => ⟨S1x1x1, .i32⟩
  | 25 => ⟨S16384x32x1, .i32⟩
  | 26 => ⟨S16384x32x1, .i1⟩
  | 27 => ⟨S16384x32x1, .i1⟩
  | 28 => ⟨S_, .i1⟩
  | 29 => ⟨S16384x32, .i1⟩
  | 30 => ⟨S16384x32x128, .f32⟩
  | 31 => ⟨S16384x32x128, .i1⟩
  | 32 => ⟨S_, .f32⟩
  | 33 => ⟨S16384x32x128, .f32⟩
  | 34 => ⟨S16384x32x128, .f32⟩
  | 35 => ⟨S_, .f32⟩
  | 36 => ⟨S16384x128, .f32⟩
  | 37 => ⟨S_, .i32⟩
  | 38 => ⟨S16384x32, .i32⟩
  | 39 => ⟨S16384x32, .i1⟩
  | 40 => ⟨S_, .i32⟩
  | 41 => ⟨S16384x32, .i32⟩
  | 42 => ⟨S16384x32, .i32⟩
  | 43 => ⟨S16384x32, .i32⟩
  | 44 => ⟨S16384x32x1, .i32⟩
  | 45 => ⟨S1, .i32⟩
  | 46 => ⟨S_, .i32⟩
  | 47 => ⟨S16384x32x1, .i32⟩
  | 48 => ⟨S16384x32x1, .i1⟩
  | 49 => ⟨S1x1x1, .i32⟩
  | 50 => ⟨S16384x32x1, .i32⟩
  | 51 => ⟨S16384x32x1, .i1⟩
  | 52 => ⟨S16384x32x1, .i1⟩
  | 53 => ⟨S_, .i1⟩
  | 54 => ⟨S16384x32, .i1⟩
  | 55 => ⟨S16384x32x128, .f32⟩
  | 56 => ⟨S16384x32x128, .i1⟩
  | 57 => ⟨S_, .f32⟩
  | 58 => ⟨S16384x32x128, .f32⟩
  | 59 => ⟨S16384x32x128, .f32⟩
  | 60 => ⟨S_, .f32⟩
  | 61 => ⟨S16384x128, .f32⟩
  | 62 => ⟨S_, .i32⟩
  | 63 => ⟨S16384x32, .i32⟩
  | 64 => ⟨S16384x32, .i1⟩
  | 65 => ⟨S_, .i32⟩
  | 66 => ⟨S16384x32, .i32⟩
  | 67 => ⟨S16384x32, .i32⟩
  | 68 => ⟨S16384x32, .i32⟩
  | 69 => ⟨S16384x32x1, .i32⟩
  | 70 => ⟨S1, .i32⟩
  | 71 => ⟨S_, .i32⟩
  | 72 => ⟨S16384x32x1, .i32⟩
  | 73 => ⟨S16384x32x1, .i1⟩
  | 74 => ⟨S1x1x1, .i32⟩
  | 75 => ⟨S16384x32x1, .i32⟩
  | 76 => ⟨S16384x32x1, .i1⟩
  | 77 => ⟨S16384x32x1, .i1⟩
  | 78 => ⟨S_, .i1⟩
  | 79 => ⟨S16384x32, .i1⟩
  | 80 => ⟨S16384x32x128, .f32⟩
  | 81 => ⟨S16384x32x128, .i1⟩
  | 82 => ⟨S_, .f32⟩
  | 83 => ⟨S16384x32x128, .f32⟩
  | 84 => ⟨S16384x32x128, .f32⟩
  | 85 => ⟨S_, .f32⟩
  | 86 => ⟨S16384x128, .f32⟩
  | 87 => ⟨S_, .i32⟩
  | 88 => ⟨S16384x32, .i32⟩
  | 89 => ⟨S16384x32, .i1⟩
  | 90 => ⟨S_, .i32⟩
  | 91 => ⟨S16384x32, .i32⟩
  | 92 => ⟨S16384x32, .i32⟩
  | 93 => ⟨S16384x32, .i32⟩
  | 94 => ⟨S16384x32x1, .i32⟩
  | 95 => ⟨S1, .i32⟩
  | 96 => ⟨S_, .i32⟩
  | 97 => ⟨S16384x32x1, .i32⟩
  | 98 => ⟨S16384x32x1, .i1⟩
  | 99 => ⟨S1x1x1, .i32⟩
  | 100 => ⟨S16384x32x1, .i32⟩
  | 101 => ⟨S16384x32x1, .i1⟩
  | 102 => ⟨S16384x32x1, .i1⟩
  | 103 => ⟨S_, .i1⟩
  | 104 => ⟨S16384x32, .i1⟩
  | 105 => ⟨S16384x32x128, .f32⟩
  | 106 => ⟨S16384x32x128, .i1⟩
  | 107 => ⟨S_, .f32⟩
  | 108 => ⟨S16384x32x128, .f32⟩
  | 109 => ⟨S16384x32x128, .f32⟩
  | 110 => ⟨S_, .f32⟩
  | 111 => ⟨S16384x128, .f32⟩
  | 112 => ⟨S16384x256, .f32⟩
  | 113 => ⟨S256x128, .f32⟩
  | 114 => ⟨S16384x128, .f32⟩
  | 115 => ⟨S1x128, .f32⟩
  | 116 => ⟨S16384x128, .f32⟩
  | 117 => ⟨S16384x128, .f32⟩
  | 118 => ⟨S16384x256, .f32⟩
  | 119 => ⟨S256x128, .f32⟩
  | 120 => ⟨S16384x128, .f32⟩
  | 121 => ⟨S1x128, .f32⟩
  | 122 => ⟨S16384x128, .f32⟩
  | 123 => ⟨S16384x128, .f32⟩
  | 124 => ⟨S16384x256, .f32⟩
  | 125 => ⟨S256x256, .f32⟩
  | 126 => ⟨S16384x256, .f32⟩
  | 127 => ⟨S1x256, .f32⟩
  | _ => ⟨S16384x32, .i32⟩

abbrev hbmTy0_1 (i : Nat) : BufTy := match i % 128 with
  | 0 => ⟨S16384x256, .f32⟩
  | 1 => ⟨S16384x256, .f32⟩
  | 2 => ⟨S_, .f32⟩
  | 3 => ⟨S16384x256, .f32⟩
  | 4 => ⟨S16384x256, .f32⟩
  | 5 => ⟨S256x1000, .f32⟩
  | 6 => ⟨S16384x1000, .f32⟩
  | 7 => ⟨S1x1000, .f32⟩
  | 8 => ⟨S16384x1000, .f32⟩
  | 9 => ⟨S16384x1000, .f32⟩
  | 10 => ⟨S16384x1000, .f32⟩
  | 11 => ⟨S16384x1000, .f32⟩
  | 12 => ⟨S_, .f32⟩
  | 13 => ⟨S16384x1000, .f32⟩
  | 14 => ⟨S16384x1000, .f32⟩
  | 15 => ⟨S_, .f32⟩
  | 16 => ⟨S16384x1000, .f32⟩
  | 17 => ⟨S16384x1000, .f32⟩
  | _ => ⟨S16384x32, .i32⟩

abbrev hbmTy (i : Nat) : BufTy := match i / 128 with
  | 0 => hbmTy0_0 i
  | 1 => hbmTy0_1 i
  | _ => ⟨S16384x32, .i32⟩

abbrev bufTy : (tb : Table) → Fin (tcTables nBuf tb) → BufTy
  | .hbm, ⟨i, _⟩ => hbmTy i
  | _, _ => ⟨S16384x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v2 : Ref sig .tc := ⟨.hbm, 59, rfl⟩
abbrev main_cst_0 : Ref sig .tc := ⟨.hbm, 60, rfl⟩
abbrev main_v3 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v4 : Ref sig .tc := ⟨.hbm, 84, rfl⟩
abbrev main_cst_1 : Ref sig .tc := ⟨.hbm, 85, rfl⟩
abbrev main_v5 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v6 : Ref sig .tc := ⟨.hbm, 109, rfl⟩
abbrev main_cst_2 : Ref sig .tc := ⟨.hbm, 110, rfl⟩
abbrev main_v7 : Ref sig .tc := ⟨.hbm, 111, rfl⟩
abbrev main_v8 : Ref sig .tc := ⟨.hbm, 112, rfl⟩
abbrev main_v9 : Ref sig .tc := ⟨.hbm, 113, rfl⟩
abbrev main_v10 : Ref sig .tc := ⟨.hbm, 114, rfl⟩
abbrev main_v11 : Ref sig .tc := ⟨.hbm, 115, rfl⟩
abbrev main_v12 : Ref sig .tc := ⟨.hbm, 116, rfl⟩
abbrev main_v13 : Ref sig .tc := ⟨.hbm, 117, rfl⟩
abbrev main_v14 : Ref sig .tc := ⟨.hbm, 118, rfl⟩
abbrev main_v15 : Ref sig .tc := ⟨.hbm, 119, rfl⟩
abbrev main_v16 : Ref sig .tc := ⟨.hbm, 120, rfl⟩
abbrev main_v17 : Ref sig .tc := ⟨.hbm, 121, rfl⟩
abbrev main_v18 : Ref sig .tc := ⟨.hbm, 122, rfl⟩
abbrev main_v19 : Ref sig .tc := ⟨.hbm, 123, rfl⟩
abbrev main_v20 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_v24 : Ref sig .tc := ⟨.hbm, 128, rfl⟩
abbrev main_v25 : Ref sig .tc := ⟨.hbm, 129, rfl⟩
abbrev main_call4_cst : Ref sig .tc := ⟨.hbm, 130, rfl⟩
abbrev main_call4_v0 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_v29 : Ref sig .tc := ⟨.hbm, 135, rfl⟩
abbrev main_v30 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_cst_3 : Ref sig .tc := ⟨.hbm, 140, rfl⟩
abbrev main_v34 : Ref sig .tc := ⟨.hbm, 141, rfl⟩
abbrev main_v35 : Ref sig .tc := ⟨.hbm, 142, rfl⟩
abbrev main_cst_4 : Ref sig .tc := ⟨.hbm, 143, rfl⟩
abbrev main_v36 : Ref sig .tc := ⟨.hbm, 144, rfl⟩
abbrev main_v37 : Ref sig .tc := ⟨.hbm, 145, rfl⟩

abbrev nD : Nat := 1
abbrev τ : Topo := Topo.v7x

variable {F : FTy → Type} [FloatOps F]

class Facts₀ : Prop where
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S_S16384x32x1 : S_.BroadcastsInDim S16384x32x1 (![] : Fin 0 → Fin S16384x32x1.rank)
  bcast_S1_S1x1x1_2 : S1.BroadcastsInDim S1x1x1 (![2] : Fin 1 → Fin S1x1x1.rank)
  bcast_S1x1x1_S16384x32x1_0_1_2 : S1x1x1.BroadcastsInDim S16384x32x1 (![0, 1, 2] : Fin 3 → Fin S16384x32x1.rank)
  reducesTo_S16384x32x1_S16384x32_d2 : S16384x32x1.ReducesTo [2] S16384x32
  h_S_ : 0 < S_.numel
  bcast_S16384x32_S16384x32x128_0_1 : S16384x32.BroadcastsInDim S16384x32x128 (![0, 1] : Fin 2 → Fin S16384x32x128.rank)
  bcast_S_S16384x32x128 : S_.BroadcastsInDim S16384x32x128 (![] : Fin 0 → Fin S16384x32x128.rank)
  reducesTo_S16384x32x128_S16384x128_d1 : S16384x32x128.ReducesTo [1] S16384x128
  concatenates_S16384x128_S16384x128_S16384x256_d1 : Shape.Concatenates [S16384x128, S16384x128] S16384x256 1
  transposes_S128x256_S256x128_1_0 : S128x256.Transposes [1, 0] S256x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S1000x256_S256x1000_1_0 : S1000x256.Transposes [1, 0] S256x1000
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  gather_S100000x128_S16384x32x1_S16384x32x128_2_0_n_n_0_2_1128_wf : GatherDims.WF S100000x128 S16384x32x1 S16384x32x128 [2] [0] [] [0] [] 2 ![1, 128]
  gather_S50000x128_S16384x32x1_S16384x32x128_2_0_n_n_0_2_1128_wf : GatherDims.WF S50000x128 S16384x32x1 S16384x32x128 [2] [0] [] [0] [] 2 ![1, 128]
  dot_S16384x256_S256x128_S16384x128_1_0_0_1_n_n_wf : DotDims.WF S16384x256 S256x128 S16384x128 [1] [0] [0] [1] [] []
  dot_S16384x256_S256x256_S16384x256_1_0_0_1_n_n_wf : DotDims.WF S16384x256 S256x256 S16384x256 [1] [0] [0] [1] [] []
  dot_S16384x256_S256x1000_S16384x1000_1_0_0_1_n_n_wf : DotDims.WF S16384x256 S256x1000 S16384x1000 [1] [0] [0] [1] [] []

variable [Facts₀]

def gather_S100000x128_S16384x32x1_S16384x32x128_2_0_n_n_0_2_1128 : GatherDims S100000x128 S16384x32x1 S16384x32x128 where
  offsetDims := [2]
  collapsedSliceDims := [0]
  operandBatchingDims := []
  startIndicesBatchingDims := []
  startIndexMap := [0]
  indexVectorDim := 2
  sliceSizes := ![1, 128]
  wf := gather_S100000x128_S16384x32x1_S16384x32x128_2_0_n_n_0_2_1128_wf
def gather_S50000x128_S16384x32x1_S16384x32x128_2_0_n_n_0_2_1128 : GatherDims S50000x128 S16384x32x1 S16384x32x128 where
  offsetDims := [2]
  collapsedSliceDims := [0]
  operandBatchingDims := []
  startIndicesBatchingDims := []
  startIndexMap := [0]
  indexVectorDim := 2
  sliceSizes := ![1, 128]
  wf := gather_S50000x128_S16384x32x1_S16384x32x128_2_0_n_n_0_2_1128_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x1000_S16384x1000_1_0_0_1_n_n : DotDims S16384x256 S256x1000 S16384x1000 where
  lhsContracting := [1]
  rhsContracting := [0]
  lhsNonContracting := [0]
  rhsNonContracting := [1]
  lhsBatch := []
  rhsBatch := []
  wf := dot_S16384x256_S256x1000_S16384x1000_1_0_0_1_n_n_wf

class Facts : Prop extends Facts₀ where

variable [Facts]
-- ==== Proof.LibRows.lean ====
/-
  Operations on matrices with a free number of rows, read at one entry (p, j): a matrix product of an
  M × K by a K × N matrix is the sum over k of the products of row p with column j; a bias row spread over the
  rows reads its entry j; a row sum kept as a column and spread over the columns reads row p's sum.
-/
import Idealize.ShloMosaic.Lib.ValueIdx
import Idealize.ShloMosaic.Lib.Pipeline.Value
import Idealize.ShloMosaic.PureOps.Ideal.Laws

noncomputable section

namespace Cert.Lib.Rows

open Idealize.ShloMosaic Idealize.ShloMosaic.ValueIdx
open scoped BigOperators

variable {M K N : ℕ}

/-- The left operand's index at output (p, j) and contraction position q: row p … -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … column q. -/
theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
/-- The right operand's index: row q … -/
theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
/-- … column j. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, as a sum over k : Fin K of row p times column j. -/
theorem plain_sum (l : (⟨2, ![M, K]⟩ : Shape).Idx → EReal) (r : (⟨2, ![K, N]⟩ : Shape).Idx → EReal) (p : Fin M) (j : Fin N) :
    ∑ q : (DotDims.plain M K N).contr.Idx, l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A matrix unit's product into the zero accumulator, at (p, j). -/
theorem matmul_plain_apply {φ₁ φ₂ : FTy} (prec : Option ContractPrecision) (l : FVec Ideal ⟨2, ![M, K]⟩ φ₁)
    (r : FVec Ideal ⟨2, ![K, N]⟩ φ₂) (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact plain_sum l r p j

/-! ## Rows, columns and biases spread over a matrix -/

variable {α : Type} {n : ℕ}

/-- A bias vector of N entries, made a 1 × N row and spread over n rows, reads its entry j at (p, j). -/
theorem bias_apply (v : (⟨1, ![N]⟩ : Shape).Idx → α) (hc : (⟨1, ![N]⟩ : Shape).ShapeCasts ⟨2, ![1, N]⟩)
    (hb : (⟨2, ![1, N]⟩ : Shape).Broadcasts ⟨2, ![n, N]⟩) (p : Fin n) (j : Fin N) :
    broadcastTo ⟨2, ![n, N]⟩ (shapeCast ⟨2, ![1, N]⟩ v hc) hb (ix2 p j) = v (ix1 j) := by
  rw [broadcastTo_apply _ hb (ix2 p j) (ix2 (0 : Fin 1) j) (fun a => by
    match a with
    | ⟨0, _⟩ => show (0 : ℕ) = if (1 : ℕ) = 1 then 0 else _; rw [if_pos rfl]
    | ⟨1, _⟩ =>
      show j.val = if N = 1 then 0 else j.val
      split
      · have := j.isLt; omega
      · rfl)]
  exact shapeCast_apply v hc (ix2 (0 : Fin 1) j) (ix1 j) (by
    rw [Shape.rowMajor_val_one, Shape.rowMajor_val_two]
    show j.val = 0 * N + j.val
    omega)

/-- A vector of n entries kept as an n × 1 column reads entry p at (p, 0). -/
theorem column_apply (v : (⟨1, ![n]⟩ : Shape).Idx → α) (hc : (⟨1, ![n]⟩ : Shape).ShapeCasts ⟨2, ![n, 1]⟩) (p : Fin n) :
    shapeCast ⟨2, ![n, 1]⟩ v hc (ix2 p (0 : Fin 1)) = v (ix1 p) :=
  shapeCast_apply v hc (ix2 p (0 : Fin 1)) (ix1 p) (by
    rw [Shape.rowMajor_val_one, Shape.rowMajor_val_two]
    show p.val = p.val * 1 + 0
    omega)

/-- An n × 1 column spread over N columns reads row p's entry at (p, j). -/
theorem spread_column_apply (col : (⟨2, ![n, 1]⟩ : Shape).Idx → α) (hb : (⟨2, ![n, 1]⟩ : Shape).Broadcasts ⟨2, ![n, N]⟩)
    (p : Fin n) (j : Fin N) :
    broadcastTo ⟨2, ![n, N]⟩ col hb (ix2 p j) = col (ix2 p (0 : Fin 1)) :=
  broadcastTo_apply col hb (ix2 p j) (ix2 p (0 : Fin 1)) (fun a => by
    match a with
    | ⟨0, _⟩ =>
      show p.val = if n = 1 then 0 else p.val
      split
      · have := p.isLt; omega
      · rfl
    | ⟨1, _⟩ => show (0 : ℕ) = if (1 : ℕ) = 1 then 0 else _; rw [if_pos rfl])

/-- The sum of a matrix along its rows: entry p of the result is the sum over the N columns of row p. -/
theorem rowsum_apply {φ : FTy} (src : FVec Ideal ⟨2, ![n, N]⟩ φ) (acc : BitVec φ.bits)
    (h : (⟨2, ![n, N]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ k : Fin N, src (ix2 p k) := by
  rw [Ideal.multiReduction_add_single]
  refine Finset.sum_congr rfl fun k _ => congrArg src (funext fun a => Fin.ext ?_)
  match a with
  | ⟨0, _⟩ => rfl
  | ⟨1, _⟩ => rfl

end Cert.Lib.Rows

end
-- ==== Proof.Spec.lean ====
/-
  One row of the two-visit network, over the extended reals.

  A row carries four bag sums of 128 entries each: the diagnosis and procedure embeddings of the current
  visit and of the previous one. Each visit's pair, laid end to end (256 entries), goes through one dense
  layer (256 → 128); the two results, laid end to end again, go through a second dense layer (256 → 256)
  and the positive part; a third dense layer (256 → 1000) and the logistic function give the row's 1000
  outputs. A dense layer's entry j is the inner product of its input with row j of the weight matrix, plus
  entry j of the bias. Nothing here mixes rows, so a matrix of such rows may be cut into blocks of rows in
  any way.
-/
import Idealize.ShloMosaic.PureOps.Ideal

noncomputable section

namespace Cert.Spec

open Idealize.ShloMosaic
open scoped BigOperators

/-- Two vectors of 128 entries laid end to end. -/
def cat (a b : Fin 128 → EReal) : Fin 256 → EReal :=
  fun k => if h : k.val < 128 then a ⟨k.val, h⟩ else b ⟨k.val - 128, by have := k.isLt; omega⟩

/-- A dense layer: entry j is the inner product of the input with row j of the weights, plus the bias at j. -/
def dense {K N : ℕ} (W : Fin N → Fin K → EReal) (b : Fin N → EReal) (x : Fin K → EReal) : Fin N → EReal :=
  fun j => (∑ k : Fin K, x k * W j k) + b j

/-- The positive part, entry by entry. -/
def relu {N : ℕ} (x : Fin N → EReal) : Fin N → EReal := fun j => max (x j) 0

/-- The network on one row: ed, ep the current visit's two bag sums, pd, pp the previous visit's. -/
def mlpRow (ed ep pd pp : Fin 128 → EReal) (W1 : Fin 128 → Fin 256 → EReal) (b1 : Fin 128 → EReal)
    (W2 : Fin 256 → Fin 256 → EReal) (b2 : Fin 256 → EReal) (W3 : Fin 1000 → Fin 256 → EReal) (b3 : Fin 1000 → EReal) :
    Fin 1000 → EReal :=
  fun j => Ideal.logistic
    (dense W3 b3 (relu (dense W2 b2 (cat (dense W1 b1 (cat ed ep)) (dense W1 b1 (cat pd pp))))) j)

end Cert.Spec

end
-- ==== Proof.RowOps.lean ====
/-
  Matrices with a free number n of rows, read at one entry (p, ·), in the terms of Spec.lean.

  Two n × 128 matrices laid side by side read, in row p, the two rows laid end to end. A dense layer of a
  matrix x against a weight matrix kept transposed (K × N, entry (k, j) the weight of input k for output j)
  reads, at (p, j), the dense layer of row p: written as a matrix unit's product into a zero accumulator
  plus a bias row spread over the rows, and written as a host product plus a bias vector spread first to
  one row and then over the rows.
-/
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws
import proofs.«426874_j84344567759287_3_alg».proof.Proof.LibRows
import proofs.«426874_j84344567759287_3_alg».proof.Proof.Spec

noncomputable section

namespace Cert.RowOps

open Idealize.ShloMosaic Idealize.ShloMosaic.ValueIdx Cert.Spec
open scoped BigOperators

variable {n K N : ℕ}

/-- Two n × 128 matrices side by side, at (p, k): the end-to-end row at k. -/
theorem cat_apply (a b : (⟨2, ![n, 128]⟩ : Shape).Idx → EReal)
    (h : Shape.Concatenates [(⟨2, ![n, 128]⟩ : Shape), ⟨2, ![n, 128]⟩] ⟨2, ![n, 256]⟩ 1) (p : Fin n) (k : Fin 256) :
    concatenate ⟨2, ![n, 256]⟩ 1 [⟨⟨2, ![n, 128]⟩, a⟩, ⟨⟨2, ![n, 128]⟩, b⟩] h (ix2 p k)
      = cat (fun q => a (ix2 p q)) (fun q => b (ix2 p q)) k := by
  unfold cat
  by_cases hk : k.val < 128
  · rw [dif_pos hk]
    exact concatenate_pair_apply_left 1 a b h (ix2 p k) rfl (ix2 p ⟨k.val, hk⟩) (fun c => by
      match c with
      | ⟨0, _⟩ => rfl
      | ⟨1, _⟩ => rfl)
  · rw [dif_neg hk]
    exact concatenate_pair_apply_right 1 a b h (ix2 p k) rfl rfl (ix2 p ⟨k.val - 128, by have := k.isLt; omega⟩)
      (fun c hc => by
        match c with
        | ⟨0, _⟩ => rfl
        | ⟨1, _⟩ => exact absurd rfl hc)
      (by show (k.val - 128) + 128 = k.val; omega)

/-- A dense layer as a matrix unit spells it, at (p, j). -/
theorem dense_unit_apply (x : FVec Ideal ⟨2, ![n, K]⟩ .f32) (wt : FVec Ideal ⟨2, ![K, N]⟩ .f32)
    (br : FVec Ideal ⟨2, ![1, N]⟩ .f32) (hb : (⟨2, ![1, N]⟩ : Shape).Broadcasts ⟨2, ![n, N]⟩) (p : Fin n) (j : Fin N) :
    addf (matmul (DotDims.plain n K N) none x wt (constant ⟨2, ![n, N]⟩ .f32 0x00000000#32))
        (broadcastTo ⟨2, ![n, N]⟩ br hb) (ix2 p j)
      = dense (fun j k => wt (ix2 k j)) (fun j => br (ix2 (0 : Fin 1) j)) (fun k => x (ix2 p k)) j := by
  show FloatOps.matmul (DotDims.plain n K N) none x wt (constant ⟨2, ![n, N]⟩ .f32 0x00000000#32) (ix2 p j)
      + broadcastTo ⟨2, ![n, N]⟩ br hb (ix2 p j) = _
  rw [Cert.Lib.Rows.matmul_plain_apply, broadcastTo_1b_ab_apply]
  rfl

/-- A dense layer as the host spells it, at (p, j). -/
theorem dense_host_apply (x : FVec Ideal ⟨2, ![n, K]⟩ .f32) (wt : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![n, N]⟩ ![0, 1]) (p : Fin n) (j : Fin N) :
    addf (Host.dotGeneral (DotDims.plain n K N) none x wt)
        (broadcastInDim ⟨2, ![n, N]⟩ ![0, 1] h2 (broadcastInDim ⟨2, ![1, N]⟩ ![1] h1 b)) (ix2 p j)
      = dense (fun j k => wt (ix2 k j)) (fun j => b (ix1 j)) (fun k => x (ix2 p k)) j := by
  show Host.dotGeneral (DotDims.plain n K N) none x wt (ix2 p j)
      + broadcastInDim ⟨2, ![n, N]⟩ ![0, 1] h2 (broadcastInDim ⟨2, ![1, N]⟩ ![1] h1 b) (ix2 p j) = _
  rw [StackMember.dotGeneral_plain_apply,
    broadcastInDim_apply ![0, 1] h2 _ (ix2 p j) (ix2 (0 : Fin 1) j) (fun a => by
      match a with
      | ⟨0, _⟩ => rfl
      | ⟨1, _⟩ =>
        show j.val = if N = 1 then 0 else j.val
        split
        · have := j.isLt; omega
        · rfl),
    broadcastInDim_apply ![1] h1 b (ix2 (0 : Fin 1) j) (ix1 j) (fun a => by
      match a with
      | ⟨0, _⟩ =>
        show j.val = if N = 1 then 0 else j.val
        split
        · have := j.isLt; omega
        · rfl)]
  rfl

/-- A dense layer of two n × 128 matrices side by side, as a matrix unit spells it, at (p, j). -/
theorem layer_unit_apply (xa xb : FVec Ideal ⟨2, ![n, 128]⟩ .f32)
    (hc : Shape.Concatenates [(⟨2, ![n, 128]⟩ : Shape), ⟨2, ![n, 128]⟩] ⟨2, ![n, 256]⟩ 1)
    (wt : FVec Ideal ⟨2, ![256, N]⟩ .f32) (br : FVec Ideal ⟨2, ![1, N]⟩ .f32)
    (hb : (⟨2, ![1, N]⟩ : Shape).Broadcasts ⟨2, ![n, N]⟩) (p : Fin n) (j : Fin N) :
    addf (matmul (DotDims.plain n 256 N) none
          (concatenate ⟨2, ![n, 256]⟩ 1 [⟨⟨2, ![n, 128]⟩, xa⟩, ⟨⟨2, ![n, 128]⟩, xb⟩] hc) wt
          (constant ⟨2, ![n, N]⟩ .f32 0x00000000#32))
        (broadcastTo ⟨2, ![n, N]⟩ br hb) (ix2 p j)
      = dense (fun j k => wt (ix2 k j)) (fun j => br (ix2 (0 : Fin 1) j))
          (cat (fun q => xa (ix2 p q)) (fun q => xb (ix2 p q))) j := by
  rw [dense_unit_apply]
  exact congrArg (fun x => dense _ _ x j) (funext fun k => cat_apply xa xb hc p k)

/-- The same as the host spells it. -/
theorem layer_host_apply (xa xb : FVec Ideal ⟨2, ![n, 128]⟩ .f32)
    (hc : Shape.Concatenates [(⟨2, ![n, 128]⟩ : Shape), ⟨2, ![n, 128]⟩] ⟨2, ![n, 256]⟩ 1)
    (wt : FVec Ideal ⟨2, ![256, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![n, N]⟩ ![0, 1]) (p : Fin n) (j : Fin N) :
    addf (Host.dotGeneral (DotDims.plain n 256 N) none
          (concatenate ⟨2, ![n, 256]⟩ 1 [⟨⟨2, ![n, 128]⟩, xa⟩, ⟨⟨2, ![n, 128]⟩, xb⟩] hc) wt)
        (broadcastInDim ⟨2, ![n, N]⟩ ![0, 1] h2 (broadcastInDim ⟨2, ![1, N]⟩ ![1] h1 b)) (ix2 p j)
      = dense (fun j k => wt (ix2 k j)) (fun j => b (ix1 j))
          (cat (fun q => xa (ix2 p q)) (fun q => xb (ix2 p q))) j := by
  rw [dense_host_apply]
  exact congrArg (fun x => dense _ _ x j) (funext fun k => cat_apply xa xb hc p k)

/-- The word 1.0 is the real number one. -/
theorem one_f32 : Ideal.ofBits .f32 0x3F800000#32 = 1 := by
  simp [Ideal.ofBits, Ideal.ieee, -EReal.coe_mul]; norm_num

/-- The positive part against a vector that is zero at the entry read. -/
theorem relu_apply {s : Shape} (x z : FVec Ideal s .f32) (i : s.Idx) (hz : z i = 0) : maximumf x z i = max (x i) 0 := by
  show max (x i) (z i) = _
  rw [hz]

/-- The host's 1 / (1 + exp (−x)), against a vector that is one at the entry read, is the logistic function there. -/
theorem sigmoid_host_apply {s : Shape} (one x : FVec Ideal s .f32) (i : s.Idx) (h1 : one i = 1) :
    Host.divf one (addf one (Host.exp (Host.negf x))) i = Ideal.logistic (x i) := by
  show Ideal.div (one i) (one i + Ideal.exp (-(x i))) = _
  rw [h1]
  rfl

/-- The network on an n-row block as a matrix unit spells it (products into zero accumulators, bias rows spread
    over the rows, the positive part against a zero splat, the logistic function as one operation), at (p, j):
    the network on row p. -/
theorem net_unit_apply (x0 x1 x2 x3 : FVec Ideal ⟨2, ![n, 128]⟩ .f32)
    (w1 : FVec Ideal ⟨2, ![256, 128]⟩ .f32) (b1 : FVec Ideal ⟨2, ![1, 128]⟩ .f32)
    (w2 : FVec Ideal ⟨2, ![256, 256]⟩ .f32) (b2 : FVec Ideal ⟨2, ![1, 256]⟩ .f32)
    (w3 : FVec Ideal ⟨2, ![256, 1000]⟩ .f32) (b3 : FVec Ideal ⟨2, ![1, 1000]⟩ .f32)
    (hc : Shape.Concatenates [(⟨2, ![n, 128]⟩ : Shape), ⟨2, ![n, 128]⟩] ⟨2, ![n, 256]⟩ 1)
    (hb1 : (⟨2, ![1, 128]⟩ : Shape).Broadcasts ⟨2, ![n, 128]⟩) (hb2 : (⟨2, ![1, 256]⟩ : Shape).Broadcasts ⟨2, ![n, 256]⟩)
    (hb3 : (⟨2, ![1, 1000]⟩ : Shape).Broadcasts ⟨2, ![n, 1000]⟩) (p : Fin n) (j : Fin 1000) :
    logistic (addf (matmul (DotDims.plain n 256 1000) none
        (maximumf (addf (matmul (DotDims.plain n 256 256) none
            (concatenate ⟨2, ![n, 256]⟩ 1
              [⟨⟨2, ![n, 128]⟩, addf (matmul (DotDims.plain n 256 128) none
                    (concatenate ⟨2, ![n, 256]⟩ 1 [⟨⟨2, ![n, 128]⟩, x0⟩, ⟨⟨2, ![n, 128]⟩, x1⟩] hc) w1
                    (constant ⟨2, ![n, 128]⟩ .f32 0x00000000#32)) (broadcastTo ⟨2, ![n, 128]⟩ b1 hb1)⟩,
               ⟨⟨2, ![n, 128]⟩, addf (matmul (DotDims.plain n 256 128) none
                    (concatenate ⟨2, ![n, 256]⟩ 1 [⟨⟨2, ![n, 128]⟩, x2⟩, ⟨⟨2, ![n, 128]⟩, x3⟩] hc) w1
                    (constant ⟨2, ![n, 128]⟩ .f32 0x00000000#32)) (broadcastTo ⟨2, ![n, 128]⟩ b1 hb1)⟩] hc)
            w2 (constant ⟨2, ![n, 256]⟩ .f32 0x00000000#32)) (broadcastTo ⟨2, ![n, 256]⟩ b2 hb2))
          (broadcast ⟨2, ![n, 256]⟩ (Scalar.ofBits .f32 0x00000000#32)))
        w3 (constant ⟨2, ![n, 1000]⟩ .f32 0x00000000#32)) (broadcastTo ⟨2, ![n, 1000]⟩ b3 hb3)) (ix2 p j)
      = mlpRow (fun q => x0 (ix2 p q)) (fun q => x1 (ix2 p q)) (fun q => x2 (ix2 p q)) (fun q => x3 (ix2 p q))
          (fun j k => w1 (ix2 k j)) (fun j => b1 (ix2 (0 : Fin 1) j)) (fun j k => w2 (ix2 k j))
          (fun j => b2 (ix2 (0 : Fin 1) j)) (fun j k => w3 (ix2 k j)) (fun j => b3 (ix2 (0 : Fin 1) j)) j := by
  unfold mlpRow
  refine congrArg Ideal.logistic ?_
  rw [dense_unit_apply]
  refine congrArg (fun x => dense _ _ x j) (funext fun k => ?_)
  refine (relu_apply _ _ _ Ideal.ofBits_zero_f32).trans ?_
  rw [layer_unit_apply]
  refine congrArg (fun x => max (dense _ _ x k) 0) ?_
  exact congrArg₂ cat (funext fun q => layer_unit_apply x0 x1 hc w1 b1 hb1 p q)
    (funext fun q => layer_unit_apply x2 x3 hc w1 b1 hb1 p q)

/-- The network on n rows as the host spells it (host products, each bias spread first to one row and then over the
    rows, the positive part against a spread zero, the logistic function as 1 / (1 + exp (−x))), at (p, j): the
    network on row p. -/
theorem net_host_apply (e0 e1 e2 e3 : FVec Ideal ⟨2, ![n, 128]⟩ .f32)
    (w1 : FVec Ideal ⟨2, ![256, 128]⟩ .f32) (b1 : FVec Ideal ⟨1, ![128]⟩ .f32)
    (w2 : FVec Ideal ⟨2, ![256, 256]⟩ .f32) (b2 : FVec Ideal ⟨1, ![256]⟩ .f32)
    (w3 : FVec Ideal ⟨2, ![256, 1000]⟩ .f32) (b3 : FVec Ideal ⟨1, ![1000]⟩ .f32)
    (hc : Shape.Concatenates [(⟨2, ![n, 128]⟩ : Shape), ⟨2, ![n, 128]⟩] ⟨2, ![n, 256]⟩ 1)
    (h11 : (⟨1, ![128]⟩ : Shape).BroadcastsInDim ⟨2, ![1, 128]⟩ ![1])
    (h12 : (⟨2, ![1, 128]⟩ : Shape).BroadcastsInDim ⟨2, ![n, 128]⟩ ![0, 1])
    (h21 : (⟨1, ![256]⟩ : Shape).BroadcastsInDim ⟨2, ![1, 256]⟩ ![1])
    (h22 : (⟨2, ![1, 256]⟩ : Shape).BroadcastsInDim ⟨2, ![n, 256]⟩ ![0, 1])
    (h31 : (⟨1, ![1000]⟩ : Shape).BroadcastsInDim ⟨2, ![1, 1000]⟩ ![1])
    (h32 : (⟨2, ![1, 1000]⟩ : Shape).BroadcastsInDim ⟨2, ![n, 1000]⟩ ![0, 1])
    (hz : (⟨0, ![]⟩ : Shape).BroadcastsInDim ⟨2, ![n, 256]⟩ ![])
    (ho : (⟨0, ![]⟩ : Shape).BroadcastsInDim ⟨2, ![n, 1000]⟩ ![]) (p : Fin n) (j : Fin 1000) :
    Host.divf (broadcastInDim ⟨2, ![n, 1000]⟩ ![] ho (constant ⟨0, ![]⟩ .f32 0x3F800000#32))
      (addf (broadcastInDim ⟨2, ![n, 1000]⟩ ![] ho (constant ⟨0, ![]⟩ .f32 0x3F800000#32))
        (Host.exp (Host.negf (addf (Host.dotGeneral (DotDims.plain n 256 1000) none
          (maximumf (addf (Host.dotGeneral (DotDims.plain n 256 256) none
              (concatenate ⟨2, ![n, 256]⟩ 1
                [⟨⟨2, ![n, 128]⟩, addf (Host.dotGeneral (DotDims.plain n 256 128) none
                      (concatenate ⟨2, ![n, 256]⟩ 1 [⟨⟨2, ![n, 128]⟩, e0⟩, ⟨⟨2, ![n, 128]⟩, e1⟩] hc) w1)
                    (broadcastInDim ⟨2, ![n, 128]⟩ ![0, 1] h12 (broadcastInDim ⟨2, ![1, 128]⟩ ![1] h11 b1))⟩,
                 ⟨⟨2, ![n, 128]⟩, addf (Host.dotGeneral (DotDims.plain n 256 128) none
                      (concatenate ⟨2, ![n, 256]⟩ 1 [⟨⟨2, ![n, 128]⟩, e2⟩, ⟨⟨2, ![n, 128]⟩, e3⟩] hc) w1)
                    (broadcastInDim ⟨2, ![n, 128]⟩ ![0, 1] h12 (broadcastInDim ⟨2, ![1, 128]⟩ ![1] h11 b1))⟩] hc) w2)
              (broadcastInDim ⟨2, ![n, 256]⟩ ![0, 1] h22 (broadcastInDim ⟨2, ![1, 256]⟩ ![1] h21 b2)))
            (broadcastInDim ⟨2, ![n, 256]⟩ ![] hz (constant ⟨0, ![]⟩ .f32 0x00000000#32))) w3)
          (broadcastInDim ⟨2, ![n, 1000]⟩ ![0, 1] h32 (broadcastInDim ⟨2, ![1, 1000]⟩ ![1] h31 b3)))))) (ix2 p j)
      = mlpRow (fun q => e0 (ix2 p q)) (fun q => e1 (ix2 p q)) (fun q => e2 (ix2 p q)) (fun q => e3 (ix2 p q))
          (fun j k => w1 (ix2 k j)) (fun j => b1 (ix1 j)) (fun j k => w2 (ix2 k j)) (fun j => b2 (ix1 j))
          (fun j k => w3 (ix2 k j)) (fun j => b3 (ix1 j)) j := by
  unfold mlpRow
  refine (sigmoid_host_apply _ _ _ one_f32).trans ?_
  refine congrArg Ideal.logistic ?_
  rw [dense_host_apply]
  refine congrArg (fun x => dense _ _ x j) (funext fun k => ?_)
  refine (relu_apply _ _ _ Ideal.ofBits_zero_f32).trans ?_
  rw [layer_host_apply]
  refine congrArg (fun x => max (dense _ _ x k) 0) ?_
  exact congrArg₂ cat (funext fun q => layer_host_apply e0 e1 hc w1 b1 h11 h12 p q)
    (funext fun q => layer_host_apply e2 e3 hc w1 b1 h11 h12 p q)

/-- The network over whole arrays of n rows, the weights kept transposed and the biases as rows: entry (r, j) is the
    one-row network on row r of the four bag sums, read at j. -/
def netArr (e0 e1 e2 e3 : (⟨2, ![n, 128]⟩ : Shape).Idx → EReal)
    (w1 : (⟨2, ![256, 128]⟩ : Shape).Idx → EReal) (b1 : (⟨2, ![1, 128]⟩ : Shape).Idx → EReal)
    (w2 : (⟨2, ![256, 256]⟩ : Shape).Idx → EReal) (b2 : (⟨2, ![1, 256]⟩ : Shape).Idx → EReal)
    (w3 : (⟨2, ![256, 1000]⟩ : Shape).Idx → EReal) (b3 : (⟨2, ![1, 1000]⟩ : Shape).Idx → EReal) :
    (⟨2, ![n, 1000]⟩ : Shape).Idx → EReal :=
  fun i => mlpRow (fun q => e0 (ix2 ⟨(i 0).val, idx2_lt0 i⟩ q)) (fun q => e1 (ix2 ⟨(i 0).val, idx2_lt0 i⟩ q))
    (fun q => e2 (ix2 ⟨(i 0).val, idx2_lt0 i⟩ q)) (fun q => e3 (ix2 ⟨(i 0).val, idx2_lt0 i⟩ q))
    (fun j k => w1 (ix2 k j)) (fun j => b1 (ix2 (0 : Fin 1) j)) (fun j k => w2 (ix2 k j))
    (fun j => b2 (ix2 (0 : Fin 1) j)) (fun j k => w3 (ix2 k j)) (fun j => b3 (ix2 (0 : Fin 1) j))
    ⟨(i 1).val, idx2_lt1 i⟩

theorem netArr_apply (e0 e1 e2 e3 : (⟨2, ![n, 128]⟩ : Shape).Idx → EReal)
    (w1 : (⟨2, ![256, 128]⟩ : Shape).Idx → EReal) (b1 : (⟨2, ![1, 128]⟩ : Shape).Idx → EReal)
    (w2 : (⟨2, ![256, 256]⟩ : Shape).Idx → EReal) (b2 : (⟨2, ![1, 256]⟩ : Shape).Idx → EReal)
    (w3 : (⟨2, ![256, 1000]⟩ : Shape).Idx → EReal) (b3 : (⟨2, ![1, 1000]⟩ : Shape).Idx → EReal) (r : Fin n) (j : Fin 1000) :
    netArr e0 e1 e2 e3 w1 b1 w2 b2 w3 b3 (ix2 r j)
      = mlpRow (fun q => e0 (ix2 r q)) (fun q => e1 (ix2 r q)) (fun q => e2 (ix2 r q)) (fun q => e3 (ix2 r q))
          (fun j k => w1 (ix2 k j)) (fun j => b1 (ix2 (0 : Fin 1) j)) (fun j k => w2 (ix2 k j))
          (fun j => b2 (ix2 (0 : Fin 1) j)) (fun j k => w3 (ix2 k j)) (fun j => b3 (ix2 (0 : Fin 1) j)) j := rfl

/-- A rank-2 index from its coordinates' values. -/
theorem eq_ix2_val {n0 n1 : ℕ} (y : (⟨2, ![n0, n1]⟩ : Shape).Idx) :
    y = ix2 (⟨(y 0).val, idx2_lt0 y⟩ : Fin n0) (⟨(y 1).val, idx2_lt1 y⟩ : Fin n1) := by
  funext a
  match a with
  | ⟨0, _⟩ => rfl
  | ⟨1, _⟩ => rfl

end Cert.RowOps

end
-- ==== Proof.KernelBlock.lean ====
/-
  What the kernel's body stores, at one entry.

  At a grid point the body holds a block of 2048 rows of each of the four bag sums, and the weights whole: the
  three weight matrices transposed (entry (k, j) the weight of input k for output j) and each bias as one row.
  Its three products are plain rows-by-columns products into zero accumulators, so the value it stores at
  (p, j) is the network applied to row p of the four blocks, read at j.
-/
import proofs.«426874_j84344567759287_3_alg».proof.Proof.Gen.KernelIdeal.Skeleton
import proofs.«426874_j84344567759287_3_alg».proof.Proof.RowOps

noncomputable section

namespace Cert.KernelIdeal.Block

open Cert.KernelIdeal Cert.KernelIdeal.Gen Idealize.ShloMosaic Idealize.ShloMosaic.ValueIdx Cert.Spec

/-- The body's three products contract the left operand's columns against the right operand's rows. -/
theorem dot1_eq : dot_S2048x256_S256x128_S2048x128_1_0_0_1_n_n = DotDims.plain 2048 256 128 := rfl
theorem dot2_eq : dot_S2048x256_S256x256_S2048x256_1_0_0_1_n_n = DotDims.plain 2048 256 256 := rfl
theorem dot3_eq : dot_S2048x256_S256x1000_S2048x1000_1_0_0_1_n_n = DotDims.plain 2048 256 1000 := rfl

/-- The stored value at (p, j): the network on row p of the four blocks. -/
theorem stored_apply (x0 x1 x2 x3 : Vec Ideal S2048x128 .f32) (w1 : Vec Ideal S256x128 .f32) (b1 : Vec Ideal S1x128 .f32)
    (w2 : Vec Ideal S256x256 .f32) (b2 : Vec Ideal S1x256 .f32) (w3 : Vec Ideal S256x1000 .f32) (b3 : Vec Ideal S1x1000 .f32)
    (p : Fin 2048) (j : Fin 1000) :
    k0_pay1 (k0_pay2 x0 x1 x2 x3 w1 b1 w2 b2) (k0_pay3 w3) (k0_pay4 b3) (constant S2048x1000 .f32 0x00000000#32) (ix2 p j)
      = mlpRow (fun q => x0 (ix2 p q)) (fun q => x1 (ix2 p q)) (fun q => x2 (ix2 p q)) (fun q => x3 (ix2 p q))
          (fun j k => w1 (ix2 k j)) (fun j => b1 (ix2 (0 : Fin 1) j)) (fun j k => w2 (ix2 k j))
          (fun j => b2 (ix2 (0 : Fin 1) j)) (fun j k => w3 (ix2 k j)) (fun j => b3 (ix2 (0 : Fin 1) j)) j := by
  unfold k0_pay1 k0_pay2 k0_pay3 k0_pay4
  simp only [shapeCast_self, dot1_eq, dot2_eq, dot3_eq]
  repeat rw [shapeCast_self]
  exact Cert.RowOps.net_unit_apply x0 x1 x2 x3 w1 b1 w2 b2 w3 b3 _ _ _ _ p j

end Cert.KernelIdeal.Block

end
-- ==== Proof.KernelValue.lean ====
/-
  The kernel's result array as one function of the arrays its region finds in its windows.

  The grid has eight points. At point t the four bag-sum windows and the result window hold rows
  2048 t … 2048 t + 2047 of their arrays; the six weight windows hold their arrays whole. The body stores,
  at (p, j) of the result block, the one-row network on row p of the four blocks (KernelBlock.lean), which is
  row 2048 t + p of the four arrays. So point t writes back block t of the array whose entry (r, j) is the
  one-row network on row r; the eight blocks tile the 16384 rows, so that array is what the result buffer
  holds after the run.
-/
import proofs.«426874_j84344567759287_3_alg».proof.Proof.Gen.KernelIdeal.Value
import proofs.«426874_j84344567759287_3_alg».proof.Proof.KernelBlock

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.ValueIdx Cert.Spec Cert.RowOps
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the eight points: the bag-sum windows and the result window sit at block row t,
    block column 0; every weight window sits at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Every block row of the result is some point's. -/
theorem idx_onto : ∀ q0 : Fin 8, ∃ t : Fin cfg0.N, win0_10.index t = ![q0.val, 0] :=
  (by decide +kernel : ∀ q0 : Fin 8, ∃ t : Fin grid0.N, win0_10.index t = ![q0.val, 0])

theorem t_lt (t : Fin cfg0.N) : t.val < 8 := lt_of_lt_of_eq t.isLt N_0

/-- Row p of point t's block is row 2048 t + p of the array. -/
def rowAt (t : Fin cfg0.N) (p : Fin 2048) : Fin 16384 :=
  ⟨t.val * 2048 + p.val, by have := t_lt t; have := p.isLt; omega⟩

/-- The result array: the one-row network on each row of the arrays the region finds in its windows. -/
def outArr (c : Dev nD) : S16384x1000.Idx → EReal :=
  netArr (V m c main_v1) (V m c main_v5) (V m c main_v3) (V m c main_v7) (V m c main_v8) (V m c main_v11)
    (V m c main_v9) (V m c main_v12) (V m c main_v10) (V m c main_v13)

/-! ## The blocks read where the arrays are -/

theorem blk0 (c : Dev nD) (t : Fin cfg0.N) (p : Fin 2048) (q : Fin 128) :
    iblk m c 0 t (ix2 p q) = V m c main_v1 (ix2 (rowAt t p) q) := by
  obtain ⟨e0, e1, -⟩ := idx_facts t
  have h : ((cfg0.win 0).blk t).view.emb (ix2 p q) = ix2 (rowAt t p) q := by
    funext a; apply Fin.ext
    match a with
    | ⟨0, _⟩ => show win0_0.index t (0 : Fin 2) * 2048 + 1 * p.val = t.val * 2048 + p.val; rw [e0]; omega
    | ⟨1, _⟩ => show win0_0.index t (1 : Fin 2) * 128 + 1 * q.val = q.val; rw [e1]; omega
  show V m c main_v1 (((cfg0.win 0).blk t).view.emb (ix2 p q)) = _
  rw [h]

theorem blk1 (c : Dev nD) (t : Fin cfg0.N) (p : Fin 2048) (q : Fin 128) :
    iblk m c 1 t (ix2 p q) = V m c main_v5 (ix2 (rowAt t p) q) := by
  obtain ⟨-, -, e0, e1, -⟩ := idx_facts t
  have h : ((cfg0.win 1).blk t).view.emb (ix2 p q) = ix2 (rowAt t p) q := by
    funext a; apply Fin.ext
    match a with
    | ⟨0, _⟩ => show win0_1.index t (0 : Fin 2) * 2048 + 1 * p.val = t.val * 2048 + p.val; rw [e0]; omega
    | ⟨1, _⟩ => show win0_1.index t (1 : Fin 2) * 128 + 1 * q.val = q.val; rw [e1]; omega
  show V m c main_v5 (((cfg0.win 1).blk t).view.emb (ix2 p q)) = _
  rw [h]

theorem blk2 (c : Dev nD) (t : Fin cfg0.N) (p : Fin 2048) (q : Fin 128) :
    iblk m c 2 t (ix2 p q) = V m c main_v3 (ix2 (rowAt t p) q) := by
  obtain ⟨-, -, -, -, e0, e1, -⟩ := idx_facts t
  have h : ((cfg0.win 2).blk t).view.emb (ix2 p q) = ix2 (rowAt t p) q := by
    funext a; apply Fin.ext
    match a with
    | ⟨0, _⟩ => show win0_2.index t (0 : Fin 2) * 2048 + 1 * p.val = t.val * 2048 + p.val; rw [e0]; omega
    | ⟨1, _⟩ => show win0_2.index t (1 : Fin 2) * 128 + 1 * q.val = q.val; rw [e1]; omega
  show V m c main_v3 (((cfg0.win 2).blk t).view.emb (ix2 p q)) = _
  rw [h]

theorem blk3 (c : Dev nD) (t : Fin cfg0.N) (p : Fin 2048) (q : Fin 128) :
    iblk m c 3 t (ix2 p q) = V m c main_v7 (ix2 (rowAt t p) q) := by
  obtain ⟨-, -, -, -, -, -, e0, e1, -⟩ := idx_facts t
  have h : ((cfg0.win 3).blk t).view.emb (ix2 p q) = ix2 (rowAt t p) q := by
    funext a; apply Fin.ext
    match a with
    | ⟨0, _⟩ => show win0_3.index t (0 : Fin 2) * 2048 + 1 * p.val = t.val * 2048 + p.val; rw [e0]; omega
    | ⟨1, _⟩ => show win0_3.index t (1 : Fin 2) * 128 + 1 * q.val = q.val; rw [e1]; omega
  show V m c main_v7 (((cfg0.win 3).blk t).view.emb (ix2 p q)) = _
  rw [h]

theorem blk4 (c : Dev nD) (t : Fin cfg0.N) (k : Fin 256) (j : Fin 128) : iblk m c 4 t (ix2 k j) = V m c main_v8 (ix2 k j) := by
  obtain ⟨-, -, -, -, -, -, -, -, e0, e1, -⟩ := idx_facts t
  have h : ((cfg0.win 4).blk t).view.emb (ix2 k j) = ix2 k j := by
    funext a; apply Fin.ext
    match a with
    | ⟨0, _⟩ => show win0_4.index t (0 : Fin 2) * 256 + 1 * k.val = k.val; rw [e0]; omega
    | ⟨1, _⟩ => show win0_4.index t (1 : Fin 2) * 128 + 1 * j.val = j.val; rw [e1]; omega
  show V m c main_v8 (((cfg0.win 4).blk t).view.emb (ix2 k j)) = _
  rw [h]

theorem blk5 (c : Dev nD) (t : Fin cfg0.N) (u : Fin 1) (j : Fin 128) : iblk m c 5 t (ix2 u j) = V m c main_v11 (ix2 u j) := by
  obtain ⟨-, -, -, -, -, -, -, -, -, -, e0, e1, -⟩ := idx_facts t
  have h : ((cfg0.win 5).blk t).view.emb (ix2 u j) = ix2 u j := by
    funext a; apply Fin.ext
    match a with
    | ⟨0, _⟩ => show win0_5.index t (0 : Fin 2) * 1 + 1 * u.val = u.val; rw [e0]; omega
    | ⟨1, _⟩ => show win0_5.index t (1 : Fin 2) * 128 + 1 * j.val = j.val; rw [e1]; omega
  show V m c main_v11 (((cfg0.win 5).blk t).view.emb (ix2 u j)) = _
  rw [h]

theorem blk6 (c : Dev nD) (t : Fin cfg0.N) (k : Fin 256) (j : Fin 256) : iblk m c 6 t (ix2 k j) = V m c main_v9 (ix2 k j) := by
  obtain ⟨-, -, -, -, -, -, -, -, -, -, -, -, e0, e1, -⟩ := idx_facts t
  have h : ((cfg0.win 6).blk t).view.emb (ix2 k j) = ix2 k j := by
    funext a; apply Fin.ext
    match a with
    | ⟨0, _⟩ => show win0_6.index t (0 : Fin 2) * 256 + 1 * k.val = k.val; rw [e0]; omega
    | ⟨1, _⟩ => show win0_6.index t (1 : Fin 2) * 256 + 1 * j.val = j.val; rw [e1]; omega
  show V m c main_v9 (((cfg0.win 6).blk t).view.emb (ix2 k j)) = _
  rw [h]

theorem blk7 (c : Dev nD) (t : Fin cfg0.N) (u : Fin 1) (j : Fin 256) : iblk m c 7 t (ix2 u j) = V m c main_v12 (ix2 u j) := by
  obtain ⟨-, -, -, -, -, -, -, -, -, -, -, -, -, -, e0, e1, -⟩ := idx_facts t
  have h : ((cfg0.win 7).blk t).view.emb (ix2 u j) = ix2 u j := by
    funext a; apply Fin.ext
    match a with
    | ⟨0, _⟩ => show win0_7.index t (0 : Fin 2) * 1 + 1 * u.val = u.val; rw [e0]; omega
    | ⟨1, _⟩ => show win0_7.index t (1 : Fin 2) * 256 + 1 * j.val = j.val; rw [e1]; omega
  show V m c main_v12 (((cfg0.win 7).blk t).view.emb (ix2 u j)) = _
  rw [h]

theorem blk8 (c : Dev nD) (t : Fin cfg0.N) (k : Fin 256) (j : Fin 1000) : iblk m c 8 t (ix2 k j) = V m c main_v10 (ix2 k j) := by
  obtain ⟨-, -, -, -, -, -, -, -, -, -, -, -, -, -, -, -, e0, e1, -⟩ := idx_facts t
  have h : ((cfg0.win 8).blk t).view.emb (ix2 k j) = ix2 k j := by
    funext a; apply Fin.ext
    match a with
    | ⟨0, _⟩ => show win0_8.index t (0 : Fin 2) * 256 + 1 * k.val = k.val; rw [e0]; omega
    | ⟨1, _⟩ => show win0_8.index t (1 : Fin 2) * 1000 + 1 * j.val = j.val; rw [e1]; omega
  show V m c main_v10 (((cfg0.win 8).blk t).view.emb (ix2 k j)) = _
  rw [h]

theorem blk9 (c : Dev nD) (t : Fin cfg0.N) (u : Fin 1) (j : Fin 1000) : iblk m c 9 t (ix2 u j) = V m c main_v13 (ix2 u j) := by
  obtain ⟨-, -, -, -, -, -, -, -, -, -, -, -, -, -, -, -, -, -, e0, e1, -⟩ := idx_facts t
  have h : ((cfg0.win 9).blk t).view.emb (ix2 u j) = ix2 u j := by
    funext a; apply Fin.ext
    match a with
    | ⟨0, _⟩ => show win0_9.index t (0 : Fin 2) * 1 + 1 * u.val = u.val; rw [e0]; omega
    | ⟨1, _⟩ => show win0_9.index t (1 : Fin 2) * 1000 + 1 * j.val = j.val; rw [e1]; omega
  show V m c main_v13 (((cfg0.win 9).blk t).view.emb (ix2 u j)) = _
  rw [h]

/-- Entry (p, j) of point t's result block is entry (2048 t + p, j) of the array. -/
theorem emb10 (t : Fin cfg0.N) (p : Fin 2048) (j : Fin 1000) :
    ((View.whole main_v14).slice ((win0 10).rect t)).emb (ix2 p j) = ix2 (rowAt t p) j := by
  obtain ⟨-, -, -, -, -, -, -, -, -, -, -, -, -, -, -, -, -, -, -, -, e0, e1⟩ := idx_facts t
  funext a; apply Fin.ext
  match a with
  | ⟨0, _⟩ => show win0_10.index t (0 : Fin 2) * 2048 + 1 * p.val = t.val * 2048 + p.val; rw [e0]; omega
  | ⟨1, _⟩ => show win0_10.index t (1 : Fin 2) * 1000 + 1 * j.val = j.val; rw [e1]; omega

/-! ## What a point writes back, and the whole array -/

/-- Point t writes back block t of the result array. -/
theorem flushed_eq (c : Dev nD) (t : Fin cfg0.N) :
    (dats m 0 c).flushed 10 t = ((cfg0.win 10).blk t).view.read (Elt Ideal) (outArr m c) := by
  rw [Value.flushed10]
  unfold out0_10
  rw [View.canon_unit_zero hz]
  simp only [View.ld_unit_zero (S := S2048x128) hz, View.ld_unit_zero (S := S256x128) hz, View.ld_unit_zero (S := S1x128) hz,
    View.ld_unit_zero (S := S256x256) hz, View.ld_unit_zero (S := S1x256) hz, View.ld_unit_zero (S := S256x1000) hz,
    View.ld_unit_zero (S := S1x1000) hz]
  funext y
  obtain ⟨p, j, rfl⟩ : ∃ (p : Fin 2048) (j : Fin 1000), y = ix2 p j := ⟨_, _, eq_ix2_val y⟩
  rw [View.read_apply, emb10 t p j]
  have hx : (win0 10).xinj (grid0.coords t) (ix2 p j) = ix2 p j :=
    funext fun a => Fin.ext (by
      match a with
      | ⟨0, _⟩ => rfl
      | ⟨1, _⟩ => rfl)
  show k0_pay1 (k0_pay2 (iblk m c 0 t) (iblk m c 1 t) (iblk m c 2 t) (iblk m c 3 t) (iblk m c 4 t) (iblk m c 5 t) (iblk m c 6 t) (iblk m c 7 t))
      (k0_pay3 (iblk m c 8 t)) (k0_pay4 (iblk m c 9 t)) (constant S2048x1000 .f32 0x00000000#32)
      ((win0 10).xinj (grid0.coords t) (ix2 p j)) = _
  rw [hx]
  refine (Block.stored_apply (iblk m c 0 t) (iblk m c 1 t) (iblk m c 2 t) (iblk m c 3 t) (iblk m c 4 t) (iblk m c 5 t)
    (iblk m c 6 t) (iblk m c 7 t) (iblk m c 8 t) (iblk m c 9 t) p j).trans ?_
  unfold outArr
  rw [netArr_apply]
  simp only [blk0, blk1, blk2, blk3, blk4, blk5, blk6, blk7, blk8, blk9]
  exact (cast_eq _ _).symm

/-- An index of the array is in point t's block iff each coordinate is in the block's range on its axis. -/
theorem mem_blk (t : Fin cfg0.N) (i : S16384x1000.Idx) :
    i ∈ ((cfg0.win 10).blk t).view.set ↔ ∀ a : Fin 2, win0_10.index t a * S2048x1000.size a ≤ (i a).val
      ∧ (i a).val < win0_10.index t a * S2048x1000.size a + S2048x1000.size a := by
  show i ∈ ((View.whole main_v14).slice (win0_10.rect t)).set ↔ _
  rw [View.set_slice_whole, Rect.mem_set_unit]
  exact Iff.rfl

/-- Row r of the array lies in the block of point r / 2048: the eight blocks tile the array. -/
theorem cover (i : S16384x1000.Idx) : ∃ t : Fin cfg0.N, (cfg0.win 10).flush t = true ∧ i ∈ ((cfg0.win 10).blk t).view.set := by
  have hi0 : (i 0).val < 16384 := (i 0).isLt
  have hi1 : (i 1).val < 1000 := (i 1).isLt
  obtain ⟨t, ht⟩ := idx_onto ⟨(i 0).val / 2048, by omega⟩
  have q0 : win0_10.index t (0 : Fin 2) = (i 0).val / 2048 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 2048 ≤ (i 0).val ∧ (i 0).val < win0_10.index t (0 : Fin 2) * 2048 + 2048; omega
  | ⟨1, _⟩ => show win0_10.index t (1 : Fin 2) * 1000 ≤ (i 1).val ∧ (i 1).val < win0_10.index t (1 : Fin 2) * 1000 + 1000; omega

/-- The result array after the run. -/
theorem final (c : Dev nD) : (dats m 0 c).arrAt 10 cfg0.N = outArr m c :=
  (dats m 0 c).arrAt_eq_of_cover 10 (outArr m c) (fun t _ => flushed_eq m c t) cover

/-- The run re-posted: the result buffer holds the result array, the arguments are unchanged. -/
theorem run : θ_run defs (onTc (τ := τ) (main (F := Ideal))) ⟨m, fun _ => 0, ρ⟩ fun r => ∀ c : Dev nD,
      r.2.mem ((c : Thread nD τ).loc main_v14) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.ArrValue

end
-- ==== Proof.RefRun.lean ====
/-
  The reference as a straight line of host operations, and its run.

  A bag sum is: the codes below zero wrapped by the table's length; the table's rows gathered at the
  wrapped codes; every gathered row whose wrapped code falls outside the table replaced by the fill word;
  the 32 rows of a bag added up. The diagnosis table has 100000 rows, the procedure table 50000; the
  two bodies differ in nothing else. The reference takes four bag sums (current diagnosis, current
  procedure, previous diagnosis, previous procedure) and then applies the network's three dense layers,
  the logistic function spelt as 1 / (1 + exp (−x)).
-/
import proofs.«426874_j84344567759287_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 23 operations of a gather from the diagnosis table, over the table, the codes and the call's buffers. -/
abbrev takeOps (tbl : TRef sig ⟨S100000x128, .f32⟩) (idx : TRef sig ⟨S16384x32, .i32⟩) (φ : fn_take.Bufs) :
    List (HloOp τ sig (Elt F)) :=
  [ TRef.nullary φ.c (constantI S_ 32 0#32),
    TRef.unary φ.c φ.v0 (broadcastInDim S16384x32 ![] bcast_S_S16384x32),
    TRef.binary idx φ.v0 φ.v1 (cmpi .slt),
    TRef.nullary φ.c_0 (constantI S_ 32 100000#32),
    TRef.unary φ.c_0 φ.v2 (broadcastInDim S16384x32 ![] bcast_S_S16384x32),
    TRef.binary idx φ.v2 φ.v3 addi,
    TRef.ternary φ.v1 φ.v3 idx φ.call0.v0 select,
    TRef.unary φ.call0.v0 φ.v5 (broadcastInDim S16384x32x1 ![0, 1] bcast_S16384x32_S16384x32x1_0_1),
    TRef.nullary φ.c_1 (constantI S1 32 99999#32),
    TRef.nullary φ.c_2 (constantI S_ 32 0#32),
    TRef.unary φ.c_2 φ.v6 (broadcastInDim S16384x32x1 ![] bcast_S_S16384x32x1),
    TRef.binary φ.v5 φ.v6 φ.v7 (cmpi .sge),
    TRef.unary φ.c_1 φ.v8 (broadcastInDim S1x1x1 ![2] bcast_S1_S1x1x1_2),
    TRef.unary φ.v8 φ.v9 (broadcastInDim S16384x32x1 ![0, 1, 2] bcast_S1x1x1_S16384x32x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x32x1_S16384x32_d2 h_S_),
    TRef.binary tbl φ.v5 φ.v13 (fun x i => Host.gather gather_S100000x128_S16384x32x1_S16384x32x128_2_0_n_n_0_2_1128 x i),
    TRef.unary φ.v12 φ.v14 (broadcastInDim S16384x32x128 ![0, 1] bcast_S16384x32_S16384x32x128_0_1),
    TRef.nullary φ.cst (constant S_ .f32 0x7FC00000#32),
    TRef.unary φ.cst φ.v15 (broadcastInDim S16384x32x128 ![] bcast_S_S16384x32x128),
    TRef.ternary φ.v14 φ.v13 φ.v15 φ.v16 select ]

/-- The same 23 operations over the procedure table: 50000 rows, the last at 49999. -/
abbrev take0Ops (tbl : TRef sig ⟨S50000x128, .f32⟩) (idx : TRef sig ⟨S16384x32, .i32⟩) (φ : fn_take_0.Bufs) :
    List (HloOp τ sig (Elt F)) :=
  [ TRef.nullary φ.c (constantI S_ 32 0#32),
    TRef.unary φ.c φ.v0 (broadcastInDim S16384x32 ![] bcast_S_S16384x32),
    TRef.binary idx φ.v0 φ.v1 (cmpi .slt),
    TRef.nullary φ.c_0 (constantI S_ 32 50000#32),
    TRef.unary φ.c_0 φ.v2 (broadcastInDim S16384x32 ![] bcast_S_S16384x32),
    TRef.binary idx φ.v2 φ.v3 addi,
    TRef.ternary φ.v1 φ.v3 idx φ.call0.v0 select,
    TRef.unary φ.call0.v0 φ.v5 (broadcastInDim S16384x32x1 ![0, 1] bcast_S16384x32_S16384x32x1_0_1),
    TRef.nullary φ.c_1 (constantI S1 32 49999#32),
    TRef.nullary φ.c_2 (constantI S_ 32 0#32),
    TRef.unary φ.c_2 φ.v6 (broadcastInDim S16384x32x1 ![] bcast_S_S16384x32x1),
    TRef.binary φ.v5 φ.v6 φ.v7 (cmpi .sge),
    TRef.unary φ.c_1 φ.v8 (broadcastInDim S1x1x1 ![2] bcast_S1_S1x1x1_2),
    TRef.unary φ.v8 φ.v9 (broadcastInDim S16384x32x1 ![0, 1, 2] bcast_S1x1x1_S16384x32x1_0_1_2),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x32x1_S16384x32_d2 h_S_),
    TRef.binary tbl φ.v5 φ.v13 (fun x i => Host.gather gather_S50000x128_S16384x32x1_S16384x32x128_2_0_n_n_0_2_1128 x i),
    TRef.unary φ.v12 φ.v14 (broadcastInDim S16384x32x128 ![0, 1] bcast_S16384x32_S16384x32x128_0_1),
    TRef.nullary φ.cst (constant S_ .f32 0x7FC00000#32),
    TRef.unary φ.cst φ.v15 (broadcastInDim S16384x32x128 ![] bcast_S_S16384x32x128),
    TRef.ternary φ.v14 φ.v13 φ.v15 φ.v16 select ]

/-- A bag's 32 gathered rows added up from the zero word: current diagnosis … -/
abbrev sum0Ops : List (HloOp τ sig (Elt F)) :=
  [ nullary main_cst (constant S_ .f32 0x00000000#32),
    binary main_v0 main_cst main_v1 ((fun x v => Host.reduceAdd x v reducesTo_S16384x32x128_S16384x128_d1 h_S_) : (⟨S16384x32x128, .f32⟩ : BufTy).Contents (Elt F) → (⟨S_, .f32⟩ : BufTy).Contents (Elt F) → (⟨S16384x128, .f32⟩ : BufTy).Contents (Elt F)) ]
/-- … current procedure … -/
abbrev sum1Ops : List (HloOp τ sig (Elt F)) :=
  [ nullary main_cst_0 (constant S_ .f32 0x00000000#32),
    binary main_v2 main_cst_0 main_v3 ((fun x v => Host.reduceAdd x v reducesTo_S16384x32x128_S16384x128_d1 h_S_) : (⟨S16384x32x128, .f32⟩ : BufTy).Contents (Elt F) → (⟨S_, .f32⟩ : BufTy).Contents (Elt F) → (⟨S16384x128, .f32⟩ : BufTy).Contents (Elt F)) ]
/-- … previous diagnosis … -/
abbrev sum2Ops : List (HloOp τ sig (Elt F)) :=
  [ nullary main_cst_1 (constant S_ .f32 0x00000000#32),
    binary main_v4 main_cst_1 main_v5 ((fun x v => Host.reduceAdd x v reducesTo_S16384x32x128_S16384x128_d1 h_S_) : (⟨S16384x32x128, .f32⟩ : BufTy).Contents (Elt F) → (⟨S_, .f32⟩ : BufTy).Contents (Elt F) → (⟨S16384x128, .f32⟩ : BufTy).Contents (Elt F)) ]
/-- … previous procedure. -/
abbrev sum3Ops : List (HloOp τ sig (Elt F)) :=
  [ nullary main_cst_2 (constant S_ .f32 0x00000000#32),
    binary main_v6 main_cst_2 main_v7 ((fun x v => Host.reduceAdd x v reducesTo_S16384x32x128_S16384x128_d1 h_S_) : (⟨S16384x32x128, .f32⟩ : BufTy).Contents (Elt F) → (⟨S_, .f32⟩ : BufTy).Contents (Elt F) → (⟨S16384x128, .f32⟩ : BufTy).Contents (Elt F)) ]

/-- The bag sums from the fourth on, from the third on, from the second on, and all four: each a gather's 23 operations
    and then its sum. -/
abbrev rest3 : List (HloOp τ sig (Elt F)) := take0Ops (.of main_arg5) (.of main_arg3) main_call3 ++ sum3Ops
abbrev rest2 : List (HloOp τ sig (Elt F)) := takeOps (.of main_arg4) (.of main_arg2) main_call2 ++ (sum2Ops ++ rest3)
abbrev rest1 : List (HloOp τ sig (Elt F)) := take0Ops (.of main_arg5) (.of main_arg1) main_call1 ++ (sum1Ops ++ rest2)
abbrev headOps : List (HloOp τ sig (Elt F)) := takeOps (.of main_arg4) (.of main_arg0) main_call0 ++ (sum0Ops ++ rest1)

/-- The network over the four bag sums: 34 operations. -/
abbrev tailOps : List (HloOp τ sig (Elt F)) :=
  [ binary main_v1 main_v3 main_v8 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    unary main_arg6 main_v9 ((transpose S256x128 [1, 0] · transposes_S128x256_S256x128_1_0) : (⟨S128x256, .f32⟩ : BufTy).Contents (Elt F) → (⟨S256x128, .f32⟩ : BufTy).Contents (Elt F)),
    binary main_v8 main_v9 main_v10 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg7 main_v11 (broadcastInDim S1x128 ![1] bcast_S128_S1x128_1 : (⟨S128, .f32⟩ : BufTy).Contents (Elt F) → (⟨S1x128, .f32⟩ : BufTy).Contents (Elt F)),
    unary main_v11 main_v12 (broadcastInDim S16384x128 ![0, 1] bcast_S1x128_S16384x128_0_1 : (⟨S1x128, .f32⟩ : BufTy).Contents (Elt F) → (⟨S16384x128, .f32⟩ : BufTy).Contents (Elt F)),
    binary main_v10 main_v12 main_v13 (addf : (⟨S16384x128, .f32⟩ : BufTy).Contents (Elt F) → (⟨S16384x128, .f32⟩ : BufTy).Contents (Elt F) → (⟨S16384x128, .f32⟩ : BufTy).Contents (Elt F)),
    binary main_v5 main_v7 main_v14 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    unary main_arg6 main_v15 ((transpose S256x128 [1, 0] · transposes_S128x256_S256x128_1_0) : (⟨S128x256, .f32⟩ : BufTy).Contents (Elt F) → (⟨S256x128, .f32⟩ : BufTy).Contents (Elt F)),
    binary main_v14 main_v15 main_v16 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg7 main_v17 (broadcastInDim S1x128 ![1] bcast_S128_S1x128_1 : (⟨S128, .f32⟩ : BufTy).Contents (Elt F) → (⟨S1x128, .f32⟩ : BufTy).Contents (Elt F)),
    unary main_v17 main_v18 (broadcastInDim S16384x128 ![0, 1] bcast_S1x128_S16384x128_0_1 : (⟨S1x128, .f32⟩ : BufTy).Contents (Elt F) → (⟨S16384x128, .f32⟩ : BufTy).Contents (Elt F)),
    binary main_v16 main_v18 main_v19 (addf : (⟨S16384x128, .f32⟩ : BufTy).Contents (Elt F) → (⟨S16384x128, .f32⟩ : BufTy).Contents (Elt F) → (⟨S16384x128, .f32⟩ : BufTy).Contents (Elt F)),
    binary main_v13 main_v19 main_v20 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    unary main_arg8 main_v21 ((transpose S256x256 [1, 0] · transposes_S256x256_S256x256_1_0) : (⟨S256x256, .f32⟩ : BufTy).Contents (Elt F) → (⟨S256x256, .f32⟩ : BufTy).Contents (Elt F)),
    binary main_v20 main_v21 main_v22 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_arg9 main_v23 (broadcastInDim S1x256 ![1] bcast_S256_S1x256_1 : (⟨S256, .f32⟩ : BufTy).Contents (Elt F) → (⟨S1x256, .f32⟩ : BufTy).Contents (Elt F)),
    unary main_v23 main_v24 (broadcastInDim S16384x256 ![0, 1] bcast_S1x256_S16384x256_0_1 : (⟨S1x256, .f32⟩ : BufTy).Contents (Elt F) → (⟨S16384x256, .f32⟩ : BufTy).Contents (Elt F)),
    binary main_v22 main_v24 main_v25 (addf : (⟨S16384x256, .f32⟩ : BufTy).Contents (Elt F) → (⟨S16384x256, .f32⟩ : BufTy).Contents (Elt F) → (⟨S16384x256, .f32⟩ : BufTy).Contents (Elt F)),
    TRef.nullary main_call4.cst (constant S_ .f32 0x00000000#32),
    TRef.unary main_call4.cst main_call4.v0 (broadcastInDim S16384x256 ![] bcast_S_S16384x256),
    TRef.binary (.of main_v25) main_call4.v0 main_call4.v1 maximumf,
    unary main_arg10 main_v27 ((transpose S256x1000 [1, 0] · transposes_S1000x256_S256x1000_1_0) : (⟨S1000x256, .f32⟩ : BufTy).Contents (Elt F) → (⟨S256x1000, .f32⟩ : BufTy).Contents (Elt F)),
    binary main_v26 main_v27 main_v28 ((fun l r => Host.dotGeneral dot_S16384x256_S256x1000_S16384x1000_1_0_0_1_n_n none l r) : (⟨S16384x256, .f32⟩ : BufTy).Contents (Elt F) → (⟨S256x1000, .f32⟩ : BufTy).Contents (Elt F) → (⟨S16384x1000, .f32⟩ : BufTy).Contents (Elt F)),
    unary main_arg11 main_v29 (broadcastInDim S1x1000 ![1] bcast_S1000_S1x1000_1 : (⟨S1000, .f32⟩ : BufTy).Contents (Elt F) → (⟨S1x1000, .f32⟩ : BufTy).Contents (Elt F)),
    unary main_v29 main_v30 (broadcastInDim S16384x1000 ![0, 1] bcast_S1x1000_S16384x1000_0_1 : (⟨S1x1000, .f32⟩ : BufTy).Contents (Elt F) → (⟨S16384x1000, .f32⟩ : BufTy).Contents (Elt F)),
    binary main_v28 main_v30 main_v31 (addf : (⟨S16384x1000, .f32⟩ : BufTy).Contents (Elt F) → (⟨S16384x1000, .f32⟩ : BufTy).Contents (Elt F) → (⟨S16384x1000, .f32⟩ : BufTy).Contents (Elt F)),
    unary main_v31 main_v32 (Host.negf : (⟨S16384x1000, .f32⟩ : BufTy).Contents (Elt F) → (⟨S16384x1000, .f32⟩ : BufTy).Contents (Elt F)),
    unary main_v32 main_v33 (Host.exp : (⟨S16384x1000, .f32⟩ : BufTy).Contents (Elt F) → (⟨S16384x1000, .f32⟩ : BufTy).Contents (Elt F)),
    nullary main_cst_3 (constant S_ .f32 0x3F800000#32),
    unary main_cst_3 main_v34 (broadcastInDim S16384x1000 ![] bcast_S_S16384x1000 : (⟨S_, .f32⟩ : BufTy).Contents (Elt F) → (⟨S16384x1000, .f32⟩ : BufTy).Contents (Elt F)),
    binary main_v34 main_v33 main_v35 (addf : (⟨S16384x1000, .f32⟩ : BufTy).Contents (Elt F) → (⟨S16384x1000, .f32⟩ : BufTy).Contents (Elt F) → (⟨S16384x1000, .f32⟩ : BufTy).Contents (Elt F)),
    nullary main_cst_4 (constant S_ .f32 0x3F800000#32),
    unary main_cst_4 main_v36 (broadcastInDim S16384x1000 ![] bcast_S_S16384x1000 : (⟨S_, .f32⟩ : BufTy).Contents (Elt F) → (⟨S16384x1000, .f32⟩ : BufTy).Contents (Elt F)),
    binary main_v36 main_v35 main_v37 (Host.divf : (⟨S16384x1000, .f32⟩ : BufTy).Contents (Elt F) → (⟨S16384x1000, .f32⟩ : BufTy).Contents (Elt F) → (⟨S16384x1000, .f32⟩ : BufTy).Contents (Elt F)) ]

/-- @main's operations, in order: the four bag sums, then the network. -/
abbrev ops : List (HloOp τ sig (Elt F)) := headOps ++ tailOps

set_option maxRecDepth 8192 in
/-- @main is that straight line: the called functions unfolded at their calls, the sequencing reassociated. -/
theorem main_eq (c : Dev nD) : main (F := F) c = seq ops := by
  simp only [main, fn_take.body, fn_take_0.body, fn_where.body, fn_relu.body, ops, headOps, rest1, rest2, rest3, sum0Ops, sum1Ops, sum2Ops,
    sum3Ops, tailOps, takeOps, take0Ops, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- A gather's operations touch TensorCore buffers only. -/
theorem takeOps_sub (tbl : TRef sig ⟨S100000x128, .f32⟩) (idx : TRef sig ⟨S16384x32, .i32⟩) (φ : fn_take.Bufs) :
    (takeOps tbl idx φ : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem take0Ops_sub (tbl : TRef sig ⟨S50000x128, .f32⟩) (idx : TRef sig ⟨S16384x32, .i32⟩) (φ : fn_take_0.Bufs) :
    (take0Ops tbl idx φ : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- So do all of @main's. -/
theorem ops_sub : (ops : List (HloOp τ sig (Elt F))).Forall fun op => op.bufs ⊆ tcRefs τ sig := by
  simp only [ops, headOps, rest1, rest2, rest3, List.forall_append]
  exact ⟨⟨takeOps_sub .., ⟨nullary_bufs_sub .., binary_bufs_sub ..⟩, take0Ops_sub .., ⟨nullary_bufs_sub .., binary_bufs_sub ..⟩,
    takeOps_sub .., ⟨nullary_bufs_sub .., binary_bufs_sub ..⟩, take0Ops_sub .., ⟨nullary_bufs_sub .., binary_bufs_sub ..⟩⟩,
    ⟨binary_bufs_sub .., unary_bufs_sub .., binary_bufs_sub .., unary_bufs_sub .., unary_bufs_sub .., binary_bufs_sub ..,
      binary_bufs_sub .., unary_bufs_sub .., binary_bufs_sub .., unary_bufs_sub .., unary_bufs_sub .., binary_bufs_sub ..,
      binary_bufs_sub .., unary_bufs_sub .., binary_bufs_sub .., unary_bufs_sub .., unary_bufs_sub .., binary_bufs_sub ..,
      nullary_bufs_sub .., unary_bufs_sub .., binary_bufs_sub ..,
      unary_bufs_sub .., binary_bufs_sub .., unary_bufs_sub .., unary_bufs_sub .., binary_bufs_sub ..,
      unary_bufs_sub .., unary_bufs_sub .., nullary_bufs_sub .., unary_bufs_sub .., binary_bufs_sub ..,
      nullary_bufs_sub .., unary_bufs_sub .., binary_bufs_sub ..⟩⟩

/-- Operations run one list after another: the second list's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- From any memory with zero counters every weakly fair execution of @main terminates, and every final state has
    each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  What the reference computes, as one function of its twelve arguments, and that function at an entry.

  A bag sum of a table at an array of codes: codes below zero are wrapped by the table's length (wrap); a code
  is kept when, after wrapping, it lies between zero and the table's last row (inRange); the table's rows are
  gathered at the wrapped codes and a row whose code is not kept is replaced by the fill word (takeD, takeP), and
  the 32 rows of each bag are added up from zero (sum32). The network then reads the four bag sums row by row: its value at
  (r, j) is the one-row network of Spec.lean on row r of the four bag sums, with the weight matrices read
  transposed and the biases read as vectors.
-/
import proofs.«426874_j84344567759287_3_alg».proof.Proof.RefRun
import proofs.«426874_j84344567759287_3_alg».proof.Proof.RowOps

noncomputable section

namespace Cert.ReferenceIdeal.RefValue

open Cert.ReferenceIdeal Cert.ReferenceIdeal.Gen Cert.ReferenceIdeal.RefRun Idealize.ShloMosaic Idealize.ShloMosaic.TcCoe
open Idealize.SL.Sem Idealize.ShloMosaic.StableHlo Idealize.ShloMosaic.ValueIdx Cert.Spec

variable {F : FTy → Type} [FloatOps F]

/-- The codes with those below zero wrapped by the table's length `len`, as a column of start indices. -/
def wrap (len : BitVec 32) (idx : (⟨S16384x32, .i32⟩ : BufTy).Contents (Elt F)) : (⟨S16384x32x1, .i32⟩ : BufTy).Contents (Elt F) :=
  broadcastInDim S16384x32x1 ![0, 1] bcast_S16384x32_S16384x32x1_0_1
    (select (cmpi .slt idx (broadcastInDim S16384x32 ![] bcast_S_S16384x32 (constantI S_ 32 0#32)))
      (addi idx (broadcastInDim S16384x32 ![] bcast_S_S16384x32 (constantI S_ 32 len))) idx)

/-- Which start indices lie between zero and the table's last row `last`. -/
def inRange (last : BitVec 32) (i : (⟨S16384x32x1, .i32⟩ : BufTy).Contents (Elt F)) : (⟨S16384x32, .i1⟩ : BufTy).Contents (Elt F) :=
  Host.reduce IntOp.andi
    (andi (cmpi .sge i (broadcastInDim S16384x32x1 ![] bcast_S_S16384x32x1 (constantI S_ 32 0#32)))
      (cmpi .sle i (broadcastInDim S16384x32x1 ![0, 1, 2] bcast_S1x1x1_S16384x32x1_0_1_2
        (broadcastInDim S1x1x1 ![2] bcast_S1_S1x1x1_2 (constantI S1 32 last)))))
    (constantI S_ 1 1#1) reducesTo_S16384x32x1_S16384x32_d2 h_S_

/-- The diagnosis table's rows gathered at the wrapped codes, a row whose code is not kept replaced by the fill word. -/
def takeD (tbl : (⟨S100000x128, .f32⟩ : BufTy).Contents (Elt F)) (idx : (⟨S16384x32, .i32⟩ : BufTy).Contents (Elt F)) :
    (⟨S16384x32x128, .f32⟩ : BufTy).Contents (Elt F) :=
  select (broadcastInDim S16384x32x128 ![0, 1] bcast_S16384x32_S16384x32x128_0_1 (inRange 99999#32 (wrap 100000#32 idx)))
    (Host.gather gather_S100000x128_S16384x32x1_S16384x32x128_2_0_n_n_0_2_1128 tbl (wrap 100000#32 idx))
    (broadcastInDim S16384x32x128 ![] bcast_S_S16384x32x128 (constant S_ .f32 0x7FC00000#32))

/-- The same over the procedure table. -/
def takeP (tbl : (⟨S50000x128, .f32⟩ : BufTy).Contents (Elt F)) (idx : (⟨S16384x32, .i32⟩ : BufTy).Contents (Elt F)) :
    (⟨S16384x32x128, .f32⟩ : BufTy).Contents (Elt F) :=
  select (broadcastInDim S16384x32x128 ![0, 1] bcast_S16384x32_S16384x32x128_0_1 (inRange 49999#32 (wrap 50000#32 idx)))
    (Host.gather gather_S50000x128_S16384x32x1_S16384x32x128_2_0_n_n_0_2_1128 tbl (wrap 50000#32 idx))
    (broadcastInDim S16384x32x128 ![] bcast_S_S16384x32x128 (constant S_ .f32 0x7FC00000#32))

/-- Each bag's 32 rows added up from zero. -/
def sum32 (rows : (⟨S16384x32x128, .f32⟩ : BufTy).Contents (Elt F)) : (⟨S16384x128, .f32⟩ : BufTy).Contents (Elt F) :=
  Host.reduceAdd rows (constant S_ .f32 0x00000000#32) reducesTo_S16384x32x128_S16384x128_d1 h_S_

/-- A bag sum over the diagnosis table (100000 rows). -/
def bagD (tbl : (⟨S100000x128, .f32⟩ : BufTy).Contents (Elt F)) (idx : (⟨S16384x32, .i32⟩ : BufTy).Contents (Elt F)) :
    (⟨S16384x128, .f32⟩ : BufTy).Contents (Elt F) := sum32 (takeD tbl idx)

/-- A bag sum over the procedure table (50000 rows). -/
def bagP (tbl : (⟨S50000x128, .f32⟩ : BufTy).Contents (Elt F)) (idx : (⟨S16384x32, .i32⟩ : BufTy).Contents (Elt F)) :
    (⟨S16384x128, .f32⟩ : BufTy).Contents (Elt F) := sum32 (takeP tbl idx)

/-- One dense layer of two matrices side by side, as the host spells it: the product with the transposed weights, plus
    the bias spread to one row and then over the rows. -/
def hostLayer1 (a b : (⟨S16384x128, .f32⟩ : BufTy).Contents (Elt F)) (W1 : (⟨S128x256, .f32⟩ : BufTy).Contents (Elt F))
    (b1 : (⟨S128, .f32⟩ : BufTy).Contents (Elt F)) : (⟨S16384x128, .f32⟩ : BufTy).Contents (Elt F) :=
  addf (Host.dotGeneral dot_S16384x256_S256x128_S16384x128_1_0_0_1_n_n none
      (concatenate S16384x256 1 [⟨S16384x128, a⟩, ⟨S16384x128, b⟩] concatenates_S16384x128_S16384x128_S16384x256_d1)
      (transpose S256x128 [1, 0] W1 transposes_S128x256_S256x128_1_0))
    (broadcastInDim S16384x128 ![0, 1] bcast_S1x128_S16384x128_0_1 (broadcastInDim S1x128 ![1] bcast_S128_S1x128_1 b1))

/-- The network over the four bag sums, as the host spells it. -/
def hostNet (e0 e1 e2 e3 : (⟨S16384x128, .f32⟩ : BufTy).Contents (Elt F)) (W1 : (⟨S128x256, .f32⟩ : BufTy).Contents (Elt F))
    (b1 : (⟨S128, .f32⟩ : BufTy).Contents (Elt F)) (W2 : (⟨S256x256, .f32⟩ : BufTy).Contents (Elt F))
    (b2 : (⟨S256, .f32⟩ : BufTy).Contents (Elt F)) (W3 : (⟨S1000x256, .f32⟩ : BufTy).Contents (Elt F))
    (b3 : (⟨S1000, .f32⟩ : BufTy).Contents (Elt F)) : (⟨S16384x1000, .f32⟩ : BufTy).Contents (Elt F) :=
  Host.divf (broadcastInDim S16384x1000 ![] bcast_S_S16384x1000 (constant S_ .f32 0x3F800000#32))
    (addf (broadcastInDim S16384x1000 ![] bcast_S_S16384x1000 (constant S_ .f32 0x3F800000#32))
      (Host.exp (Host.negf (addf (Host.dotGeneral dot_S16384x256_S256x1000_S16384x1000_1_0_0_1_n_n none
        (maximumf (addf (Host.dotGeneral dot_S16384x256_S256x256_S16384x256_1_0_0_1_n_n none
            (concatenate S16384x256 1 [⟨S16384x128, hostLayer1 e0 e1 W1 b1⟩, ⟨S16384x128, hostLayer1 e2 e3 W1 b1⟩]
              concatenates_S16384x128_S16384x128_S16384x256_d1)
            (transpose S256x256 [1, 0] W2 transposes_S256x256_S256x256_1_0))
          (broadcastInDim S16384x256 ![0, 1] bcast_S1x256_S16384x256_0_1 (broadcastInDim S1x256 ![1] bcast_S256_S1x256_1 b2)))
          (broadcastInDim S16384x256 ![] bcast_S_S16384x256 (constant S_ .f32 0x00000000#32)))
        (transpose S256x1000 [1, 0] W3 transposes_S1000x256_S256x1000_1_0))
        (broadcastInDim S16384x1000 ![0, 1] bcast_S1x1000_S16384x1000_0_1 (broadcastInDim S1x1000 ![1] bcast_S1000_S1x1000_1 b3))))))

/-- What the reference leaves in its result buffer: the host network of the four bag sums of its arguments. -/
def refOut (V : Valuation τ sig (Elt F)) : (⟨S16384x1000, .f32⟩ : BufTy).Contents (Elt F) :=
  hostNet (bagD (V (main_arg4 : DevRef τ sig)) (V (main_arg0 : DevRef τ sig)))
    (bagP (V (main_arg5 : DevRef τ sig)) (V (main_arg1 : DevRef τ sig)))
    (bagD (V (main_arg4 : DevRef τ sig)) (V (main_arg2 : DevRef τ sig)))
    (bagP (V (main_arg5 : DevRef τ sig)) (V (main_arg3 : DevRef τ sig)))
    (V (main_arg6 : DevRef τ sig)) (V (main_arg7 : DevRef τ sig)) (V (main_arg8 : DevRef τ sig))
    (V (main_arg9 : DevRef τ sig)) (V (main_arg10 : DevRef τ sig)) (V (main_arg11 : DevRef τ sig))

/-- No operation of the list at hand writes the buffer read: it keeps its contents. (The lists are unfolded to their
    operations, each operation's one written buffer is compared with the buffer read.) -/
local macro "not_written" : tactic => `(tactic| (
  refine after_of_forall_not_mem _ _ (List.forall_iff_forall_mem.mp ?_)
  simp only [ops, headOps, rest1, rest2, rest3, sum0Ops, sum1Ops, sum2Ops, sum3Ops, tailOps, takeOps, take0Ops,
    List.cons_append, List.nil_append, List.Forall, nullary_writes, unary_writes, binary_writes, ternary_writes,
    Finset.mem_singleton]
  repeat' apply And.intro
  all_goals exact devRef_ne_of_ne (by decide)))

/-! ## One gather, one sum -/

set_option maxRecDepth 8192 in
set_option maxHeartbeats 4000000 in
theorem take0_read (V : Valuation τ sig (Elt F)) :
    after (takeOps (.of main_arg4) (.of main_arg0) main_call0) V (main_v0 : DevRef τ sig)
      = takeD (V (main_arg4 : DevRef τ sig)) (V (main_arg0 : DevRef τ sig)) := by
  simp only [takeOps]
  after_results
  simp only [TRef.toBuf, TRef.ofBuf, cast_eq]
  rfl

set_option maxRecDepth 8192 in
set_option maxHeartbeats 4000000 in
theorem take1_read (V : Valuation τ sig (Elt F)) :
    after (take0Ops (.of main_arg5) (.of main_arg1) main_call1) V (main_v2 : DevRef τ sig)
      = takeP (V (main_arg5 : DevRef τ sig)) (V (main_arg1 : DevRef τ sig)) := by
  simp only [take0Ops]
  after_results
  simp only [TRef.toBuf, TRef.ofBuf, cast_eq]
  rfl

set_option maxRecDepth 8192 in
set_option maxHeartbeats 4000000 in
theorem take2_read (V : Valuation τ sig (Elt F)) :
    after (takeOps (.of main_arg4) (.of main_arg2) main_call2) V (main_v4 : DevRef τ sig)
      = takeD (V (main_arg4 : DevRef τ sig)) (V (main_arg2 : DevRef τ sig)) := by
  simp only [takeOps]
  after_results
  simp only [TRef.toBuf, TRef.ofBuf, cast_eq]
  rfl

set_option maxRecDepth 8192 in
set_option maxHeartbeats 4000000 in
theorem take3_read (V : Valuation τ sig (Elt F)) :
    after (take0Ops (.of main_arg5) (.of main_arg3) main_call3) V (main_v6 : DevRef τ sig)
      = takeP (V (main_arg5 : DevRef τ sig)) (V (main_arg3 : DevRef τ sig)) := by
  simp only [take0Ops]
  after_results
  simp only [TRef.toBuf, TRef.ofBuf, cast_eq]
  rfl

theorem sum0_read (X : Valuation τ sig (Elt F)) : after sum0Ops X (main_v1 : DevRef τ sig) = sum32 (X (main_v0 : DevRef τ sig)) := by
  simp only [sum0Ops]
  after_results
  rfl
theorem sum1_read (X : Valuation τ sig (Elt F)) : after sum1Ops X (main_v3 : DevRef τ sig) = sum32 (X (main_v2 : DevRef τ sig)) := by
  simp only [sum1Ops]
  after_results
  rfl
theorem sum2_read (X : Valuation τ sig (Elt F)) : after sum2Ops X (main_v5 : DevRef τ sig) = sum32 (X (main_v4 : DevRef τ sig)) := by
  simp only [sum2Ops]
  after_results
  rfl
theorem sum3_read (X : Valuation τ sig (Elt F)) : after sum3Ops X (main_v7 : DevRef τ sig) = sum32 (X (main_v6 : DevRef τ sig)) := by
  simp only [sum3Ops]
  after_results
  rfl

/-! ## What the later operations leave alone -/

set_option maxRecDepth 8192 in
theorem rest1_keeps_v1 (X : Valuation τ sig (Elt F)) : after rest1 X (main_v1 : DevRef τ sig) = X (main_v1 : DevRef τ sig) := by
  not_written
set_option maxRecDepth 8192 in
theorem rest2_keeps_v3 (X : Valuation τ sig (Elt F)) : after rest2 X (main_v3 : DevRef τ sig) = X (main_v3 : DevRef τ sig) := by
  not_written
set_option maxRecDepth 8192 in
theorem rest3_keeps_v5 (X : Valuation τ sig (Elt F)) : after rest3 X (main_v5 : DevRef τ sig) = X (main_v5 : DevRef τ sig) := by
  not_written

/-! ## The four bag sums after all of them are taken -/

set_option maxRecDepth 8192 in
theorem head_v1 (V : Valuation τ sig (Elt F)) :
    after headOps V (main_v1 : DevRef τ sig) = bagD (V (main_arg4 : DevRef τ sig)) (V (main_arg0 : DevRef τ sig)) := by
  show after (takeOps (.of main_arg4) (.of main_arg0) main_call0 ++ (sum0Ops ++ rest1)) V (main_v1 : DevRef τ sig) = _
  rw [after_append, after_append, rest1_keeps_v1, sum0_read, take0_read]
  rfl

set_option maxRecDepth 8192 in
set_option maxHeartbeats 1000000 in
theorem head_v3 (V : Valuation τ sig (Elt F)) :
    after headOps V (main_v3 : DevRef τ sig) = bagP (V (main_arg5 : DevRef τ sig)) (V (main_arg1 : DevRef τ sig)) := by
  show after (takeOps (.of main_arg4) (.of main_arg0) main_call0 ++ (sum0Ops ++ (take0Ops (.of main_arg5) (.of main_arg1) main_call1
    ++ (sum1Ops ++ rest2)))) V (main_v3 : DevRef τ sig) = _
  rw [after_append, after_append, after_append, after_append, rest2_keeps_v3, sum1_read, take1_read]
  simp only [sum0Ops, takeOps]
  after_results
  rfl

set_option maxRecDepth 8192 in
set_option maxHeartbeats 2000000 in
theorem head_v5 (V : Valuation τ sig (Elt F)) :
    after headOps V (main_v5 : DevRef τ sig) = bagD (V (main_arg4 : DevRef τ sig)) (V (main_arg2 : DevRef τ sig)) := by
  show after (takeOps (.of main_arg4) (.of main_arg0) main_call0 ++ (sum0Ops ++ (take0Ops (.of main_arg5) (.of main_arg1) main_call1
    ++ (sum1Ops ++ (takeOps (.of main_arg4) (.of main_arg2) main_call2 ++ (sum2Ops ++ rest3)))))) V (main_v5 : DevRef τ sig) = _
  rw [after_append, after_append, after_append, after_append, after_append, after_append, rest3_keeps_v5, sum2_read, take2_read]
  simp only [sum0Ops, sum1Ops, takeOps, take0Ops]
  after_results
  rfl

set_option maxRecDepth 8192 in
set_option maxHeartbeats 4000000 in
theorem head_v7 (V : Valuation τ sig (Elt F)) :
    after headOps V (main_v7 : DevRef τ sig) = bagP (V (main_arg5 : DevRef τ sig)) (V (main_arg3 : DevRef τ sig)) := by
  show after (takeOps (.of main_arg4) (.of main_arg0) main_call0 ++ (sum0Ops ++ (take0Ops (.of main_arg5) (.of main_arg1) main_call1
    ++ (sum1Ops ++ (takeOps (.of main_arg4) (.of main_arg2) main_call2 ++ (sum2Ops ++ (take0Ops (.of main_arg5) (.of main_arg3) main_call3
    ++ sum3Ops))))))) V (main_v7 : DevRef τ sig) = _
  rw [after_append, after_append, after_append, after_append, after_append, after_append, after_append, sum3_read, take3_read]
  simp only [sum0Ops, sum1Ops, sum2Ops, takeOps, take0Ops]
  after_results
  rfl

set_option maxRecDepth 8192 in
/-- The bag sums' operations write no weight and no bias. -/
theorem head_keeps_weights (V : Valuation τ sig (Elt F)) :
    after headOps V (main_arg6 : DevRef τ sig) = V (main_arg6 : DevRef τ sig)
    ∧ after headOps V (main_arg7 : DevRef τ sig) = V (main_arg7 : DevRef τ sig)
    ∧ after headOps V (main_arg8 : DevRef τ sig) = V (main_arg8 : DevRef τ sig)
    ∧ after headOps V (main_arg9 : DevRef τ sig) = V (main_arg9 : DevRef τ sig)
    ∧ after headOps V (main_arg10 : DevRef τ sig) = V (main_arg10 : DevRef τ sig)
    ∧ after headOps V (main_arg11 : DevRef τ sig) = V (main_arg11 : DevRef τ sig) := by
  refine ⟨?_, ?_, ?_, ?_, ?_, ?_⟩ <;> not_written

/-! ## The network's operations, and the whole line -/

set_option maxRecDepth 8192 in
set_option maxHeartbeats 2000000 in
/-- Over any contents W the network's 34 operations leave, in the result buffer, the host network of what W holds in the
    four bag-sum buffers, the weights and the biases. -/
theorem tail_read (W : Valuation τ sig (Elt F)) :
    after tailOps W (main_v37 : DevRef τ sig)
      = hostNet (W (main_v1 : DevRef τ sig)) (W (main_v3 : DevRef τ sig)) (W (main_v5 : DevRef τ sig)) (W (main_v7 : DevRef τ sig))
          (W (main_arg6 : DevRef τ sig)) (W (main_arg7 : DevRef τ sig)) (W (main_arg8 : DevRef τ sig))
          (W (main_arg9 : DevRef τ sig)) (W (main_arg10 : DevRef τ sig)) (W (main_arg11 : DevRef τ sig)) := by
  simp only [tailOps]
  after_results
  simp only [TRef.toBuf, TRef.ofBuf, cast_eq]
  rfl

/-- The operations' fold at the result buffer is the reference's function of the launch contents. -/
theorem out_eq (V : Valuation τ sig (Elt F)) : after ops V (main_v37 : DevRef τ sig) = refOut V := by
  obtain ⟨k6, k7, k8, k9, k10, k11⟩ := head_keeps_weights V
  show after (headOps ++ tailOps) V (main_v37 : DevRef τ sig) = _
  rw [after_append, tail_read, head_v1, head_v3, head_v5, head_v7, k6, k7, k8, k9, k10, k11]
  rfl

set_option maxRecDepth 8192 in
/-- No operation writes an argument: the fold leaves the twelve of them as they were. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig) := by
  refine ⟨?_, ?_, ?_, ?_, ?_, ?_, ?_, ?_, ?_, ?_, ?_, ?_⟩ <;> not_written

/-- The reference's three products contract the left operand's columns against the right operand's rows. -/
theorem dot1_eq : dot_S16384x256_S256x128_S16384x128_1_0_0_1_n_n = DotDims.plain 16384 256 128 := rfl
theorem dot2_eq : dot_S16384x256_S256x256_S16384x256_1_0_0_1_n_n = DotDims.plain 16384 256 256 := rfl
theorem dot3_eq : dot_S16384x256_S256x1000_S16384x1000_1_0_0_1_n_n = DotDims.plain 16384 256 1000 := rfl

/-- The host network at (r, j): the one-row network on row r of the four bag sums, the weights read transposed. -/
theorem hostNet_apply (e0 e1 e2 e3 : (⟨S16384x128, .f32⟩ : BufTy).Contents (Elt Ideal))
    (W1 : (⟨S128x256, .f32⟩ : BufTy).Contents (Elt Ideal)) (b1 : (⟨S128, .f32⟩ : BufTy).Contents (Elt Ideal))
    (W2 : (⟨S256x256, .f32⟩ : BufTy).Contents (Elt Ideal)) (b2 : (⟨S256, .f32⟩ : BufTy).Contents (Elt Ideal))
    (W3 : (⟨S1000x256, .f32⟩ : BufTy).Contents (Elt Ideal)) (b3 : (⟨S1000, .f32⟩ : BufTy).Contents (Elt Ideal))
    (r : Fin 16384) (j : Fin 1000) :
    hostNet (F := Ideal) e0 e1 e2 e3 W1 b1 W2 b2 W3 b3 (ix2 r j)
      = mlpRow (fun q => e0 (ix2 r q)) (fun q => e1 (ix2 r q)) (fun q => e2 (ix2 r q)) (fun q => e3 (ix2 r q))
          (fun j k => transpose S256x128 [1, 0] W1 transposes_S128x256_S256x128_1_0 (ix2 k j)) (fun j => b1 (ix1 j))
          (fun j k => transpose S256x256 [1, 0] W2 transposes_S256x256_S256x256_1_0 (ix2 k j)) (fun j => b2 (ix1 j))
          (fun j k => transpose S256x1000 [1, 0] W3 transposes_S1000x256_S256x1000_1_0 (ix2 k j)) (fun j => b3 (ix1 j)) j := by
  unfold hostNet hostLayer1
  rw [dot1_eq, dot2_eq, dot3_eq]
  exact Cert.RowOps.net_host_apply e0 e1 e2 e3 _ b1 _ b2 _ b3 _ _ _ _ _ _ _ _ _ r j

end Cert.ReferenceIdeal.RefValue

end
-- ==== Proof.KernelTake.lean ====
/-
  The kernel's host stretches, one at a time, over any contents X of the buffers.

  A gather's stretch leaves, in its result buffer, the table's rows gathered at the wrapped codes with the rows of
  codes out of range replaced by the fill word (RefValue.lean's takeD, takeP: the same operations as the reference's);
  a sum's stretch leaves the 32 rows of each bag added up (sum32); the last stretch also leaves the three weight
  matrices transposed and the three bias vectors as one row each.
-/
import proofs.«426874_j84344567759287_3_alg».proof.Proof.Gen.KernelIdeal.Frame
import proofs.«426874_j84344567759287_3_alg».proof.Proof.RefValue
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo
open Cert.ReferenceIdeal.RefValue (takeD takeP sum32)

set_option maxRecDepth 8192 in
set_option maxHeartbeats 4000000 in
theorem take0_read (X : Valuation τ sig (Elt Ideal)) :
    after hostOps0 X (main_v0 : DevRef τ sig) = takeD (X (main_arg4 : DevRef τ sig)) (X (main_arg0 : DevRef τ sig)) := by
  simp only [hostOps0]
  after_results
  simp only [TRef.toBuf, TRef.ofBuf, cast_eq]
  rfl

set_option maxRecDepth 8192 in
set_option maxHeartbeats 4000000 in
theorem take2_read (X : Valuation τ sig (Elt Ideal)) :
    after hostOps0_2 X (main_v2 : DevRef τ sig) = takeD (X (main_arg4 : DevRef τ sig)) (X (main_arg2 : DevRef τ sig)) := by
  simp only [hostOps0_2]
  after_results
  simp only [TRef.toBuf, TRef.ofBuf, cast_eq]
  rfl

set_option maxRecDepth 8192 in
set_option maxHeartbeats 4000000 in
theorem take4_read (X : Valuation τ sig (Elt Ideal)) :
    after hostOps0_4 X (main_v4 : DevRef τ sig) = takeP (X (main_arg5 : DevRef τ sig)) (X (main_arg1 : DevRef τ sig)) := by
  simp only [hostOps0_4]
  after_results
  simp only [TRef.toBuf, TRef.ofBuf, cast_eq]
  rfl

set_option maxRecDepth 8192 in
set_option maxHeartbeats 4000000 in
theorem take6_read (X : Valuation τ sig (Elt Ideal)) :
    after hostOps0_6 X (main_v6 : DevRef τ sig) = takeP (X (main_arg5 : DevRef τ sig)) (X (main_arg3 : DevRef τ sig)) := by
  simp only [hostOps0_6]
  after_results
  simp only [TRef.toBuf, TRef.ofBuf, cast_eq]
  rfl

theorem sum1_read (X : Valuation τ sig (Elt Ideal)) : after hostOps0_1 X (main_v1 : DevRef τ sig) = sum32 (X (main_v0 : DevRef τ sig)) := by
  simp only [hostOps0_1]
  after_results
  rfl
theorem sum3_read (X : Valuation τ sig (Elt Ideal)) : after hostOps0_3 X (main_v3 : DevRef τ sig) = sum32 (X (main_v2 : DevRef τ sig)) := by
  simp only [hostOps0_3]
  after_results
  rfl
theorem sum5_read (X : Valuation τ sig (Elt Ideal)) : after hostOps0_5 X (main_v5 : DevRef τ sig) = sum32 (X (main_v4 : DevRef τ sig)) := by
  simp only [hostOps0_5]
  after_results
  rfl

/-- The last stretch: the fourth sum, the three transposes, the three reshapes. -/
theorem last_read (X : Valuation τ sig (Elt Ideal)) :
    after hostOps0_7 X (main_v7 : DevRef τ sig) = sum32 (X (main_v6 : DevRef τ sig))
    ∧ after hostOps0_7 X (main_v8 : DevRef τ sig) = transpose S256x128 [1, 0] (X (main_arg6 : DevRef τ sig)) transposes_S128x256_S256x128_1_0
    ∧ after hostOps0_7 X (main_v9 : DevRef τ sig) = transpose S256x256 [1, 0] (X (main_arg8 : DevRef τ sig)) transposes_S256x256_S256x256_1_0
    ∧ after hostOps0_7 X (main_v10 : DevRef τ sig) = transpose S256x1000 [1, 0] (X (main_arg10 : DevRef τ sig)) transposes_S1000x256_S256x1000_1_0
    ∧ after hostOps0_7 X (main_v11 : DevRef τ sig) = shapeCast S1x128 (X (main_arg7 : DevRef τ sig)) shapeCasts_S128_S1x128
    ∧ after hostOps0_7 X (main_v12 : DevRef τ sig) = shapeCast S1x256 (X (main_arg9 : DevRef τ sig)) shapeCasts_S256_S1x256
    ∧ after hostOps0_7 X (main_v13 : DevRef τ sig) = shapeCast S1x1000 (X (main_arg11 : DevRef τ sig)) shapeCasts_S1000_S1x1000 := by
  simp only [hostOps0_7]
  refine ⟨?_, ?_, ?_, ?_, ?_, ?_, ?_⟩
  all_goals first | (after_results; rfl) | after_results

end Cert.KernelIdeal.HostValue

end
-- ==== Proof.KernelKeep.lean ====
/-
  Which of the kernel's host stretches leave which buffers alone.

  A bag sum, once taken, is not written by any later stretch. The operands of the second and third gathers are not
  written by the stretches before them; the operands of the fourth gather are not written by its own stretch or the
  last; the weights and biases are not written by the last stretch. (That no stretch at all writes an argument is the
  generated frame's; these facts cut it at the stretch of interest.)
-/
import proofs.«426874_j84344567759287_3_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- No operation of the lists at hand writes the buffer read: it keeps its contents. (The lists are unfolded to their
    operations, each operation's one written buffer is compared with the buffer read.) -/
local macro "not_written" : tactic => `(tactic| (
  refine after_of_forall_not_mem _ _ (List.forall_iff_forall_mem.mp ?_)
  simp only [hostOps0, hostOps0_1, hostOps0_2, hostOps0_3, hostOps0_4, hostOps0_5, hostOps0_6, hostOps0_7,
    List.append_assoc, List.cons_append, List.nil_append, List.Forall, nullary_writes, unary_writes, binary_writes, ternary_writes,
    reshape_writes, Finset.mem_singleton]
  repeat' apply And.intro
  all_goals exact devRef_ne_of_ne (by decide)))

set_option maxRecDepth 8192 in
theorem after2_keeps_v1 (X : Valuation τ sig (Elt F)) :
    after (hostOps0_2 ++ (hostOps0_3 ++ (hostOps0_4 ++ (hostOps0_5 ++ (hostOps0_6 ++ hostOps0_7))))) X (main_v1 : DevRef τ sig)
      = X (main_v1 : DevRef τ sig) := by
  not_written
set_option maxRecDepth 8192 in
theorem after4_keeps_v3 (X : Valuation τ sig (Elt F)) :
    after (hostOps0_4 ++ (hostOps0_5 ++ (hostOps0_6 ++ hostOps0_7))) X (main_v3 : DevRef τ sig) = X (main_v3 : DevRef τ sig) := by
  not_written
set_option maxRecDepth 8192 in
theorem after6_keeps_v5 (X : Valuation τ sig (Elt F)) :
    after (hostOps0_6 ++ hostOps0_7) X (main_v5 : DevRef τ sig) = X (main_v5 : DevRef τ sig) := by
  not_written

set_option maxRecDepth 8192 in
theorem before2_keeps (X : Valuation τ sig (Elt F)) :
    after (hostOps0 ++ hostOps0_1) X (main_arg4 : DevRef τ sig) = X (main_arg4 : DevRef τ sig)
    ∧ after (hostOps0 ++ hostOps0_1) X (main_arg2 : DevRef τ sig) = X (main_arg2 : DevRef τ sig) := by
  refine ⟨?_, ?_⟩ <;> not_written
set_option maxRecDepth 8192 in
theorem before4_keeps (X : Valuation τ sig (Elt F)) :
    after (hostOps0 ++ (hostOps0_1 ++ (hostOps0_2 ++ hostOps0_3))) X (main_arg5 : DevRef τ sig) = X (main_arg5 : DevRef τ sig)
    ∧ after (hostOps0 ++ (hostOps0_1 ++ (hostOps0_2 ++ hostOps0_3))) X (main_arg1 : DevRef τ sig) = X (main_arg1 : DevRef τ sig) := by
  refine ⟨?_, ?_⟩ <;> not_written
set_option maxRecDepth 8192 in
theorem tail6_keeps (X : Valuation τ sig (Elt F)) :
    after (hostOps0_6 ++ hostOps0_7) X (main_arg5 : DevRef τ sig) = X (main_arg5 : DevRef τ sig)
    ∧ after (hostOps0_6 ++ hostOps0_7) X (main_arg3 : DevRef τ sig) = X (main_arg3 : DevRef τ sig) := by
  refine ⟨?_, ?_⟩ <;> not_written
theorem last_keeps (X : Valuation τ sig (Elt F)) :
    after hostOps0_7 X (main_arg6 : DevRef τ sig) = X (main_arg6 : DevRef τ sig)
    ∧ after hostOps0_7 X (main_arg7 : DevRef τ sig) = X (main_arg7 : DevRef τ sig)
    ∧ after hostOps0_7 X (main_arg8 : DevRef τ sig) = X (main_arg8 : DevRef τ sig)
    ∧ after hostOps0_7 X (main_arg9 : DevRef τ sig) = X (main_arg9 : DevRef τ sig)
    ∧ after hostOps0_7 X (main_arg10 : DevRef τ sig) = X (main_arg10 : DevRef τ sig)
    ∧ after hostOps0_7 X (main_arg11 : DevRef τ sig) = X (main_arg11 : DevRef τ sig) := by
  refine ⟨?_, ?_, ?_, ?_, ?_, ?_⟩ <;> not_written

end Cert.KernelIdeal.HostValue

end
-- ==== Proof.KernelHost.lean ====
/-
  The arrays the kernel's region finds in its ten input windows, as functions of the launch arguments.

  Before the region the kernel's program runs eight stretches of host operations: a gather and then a sum for each
  of the four bags (diagnosis table at the current codes, diagnosis table at the previous codes, procedure table at
  the current codes, procedure table at the previous codes), the last sum's stretch also transposing the three
  weight matrices and reshaping the three bias vectors to one row each. Each window's array is read off the stretch
  that writes it (KernelTake.lean): the stretches after it do not write it, and its operands reach it as launched
  (KernelKeep.lean, and the generated frame's fact that no stretch writes an argument).
-/
import proofs.«426874_j84344567759287_3_alg».proof.Proof.KernelTake
import proofs.«426874_j84344567759287_3_alg».proof.Proof.KernelKeep

noncomputable section

namespace Cert.KernelIdeal.HostValue

open Cert.KernelIdeal Cert.KernelIdeal.Gen Idealize.ShloMosaic Idealize.ShloMosaic.TcCoe Idealize.SL.Sem Idealize.ShloMosaic.StableHlo
open Cert.ReferenceIdeal.RefValue (takeD takeP sum32 bagD bagP)

variable (m : (ℓ : Loc nD τ sig) → Buf (Elt Ideal) ℓ)

/-- The launch contents of core c's buffers. -/
abbrev L0 (c : Dev nD) : Valuation τ sig (Elt Ideal) := fun b => m (c, b)

/-- The eight stretches. -/
abbrev h0 : List (HloOp τ sig (Elt Ideal)) := hostOps0
abbrev h1 : List (HloOp τ sig (Elt Ideal)) := hostOps0_1
abbrev h2 : List (HloOp τ sig (Elt Ideal)) := hostOps0_2
abbrev h3 : List (HloOp τ sig (Elt Ideal)) := hostOps0_3
abbrev h4 : List (HloOp τ sig (Elt Ideal)) := hostOps0_4
abbrev h5 : List (HloOp τ sig (Elt Ideal)) := hostOps0_5
abbrev h6 : List (HloOp τ sig (Elt Ideal)) := hostOps0_6
abbrev h7 : List (HloOp τ sig (Elt Ideal)) := hostOps0_7

/-- The region's entry contents: the eight stretches, as one list, over the launch contents. -/
theorem V_eq (c : Dev nD) (b : Ref sig .tc) :
    V m c b = after (h0 ++ (h1 ++ (h2 ++ (h3 ++ (h4 ++ (h5 ++ (h6 ++ h7))))))) (L0 m c) (Proc.devRef .tc b) := by
  dsimp only [V]
  simp only [List.flatten_cons, List.flatten_nil, List.append_nil]

/-- The same list cut before the second gather, before the third, before the fourth, and before the last stretch. -/
theorem cut2 : h0 ++ (h1 ++ (h2 ++ (h3 ++ (h4 ++ (h5 ++ (h6 ++ h7)))))) = (h0 ++ h1) ++ (h2 ++ (h3 ++ (h4 ++ (h5 ++ (h6 ++ h7))))) := by
  simp only [List.append_assoc]
theorem cut4 : h0 ++ (h1 ++ (h2 ++ (h3 ++ (h4 ++ (h5 ++ (h6 ++ h7)))))) = (h0 ++ (h1 ++ (h2 ++ h3))) ++ (h4 ++ (h5 ++ (h6 ++ h7))) := by
  simp only [List.append_assoc]
theorem cut6 : h0 ++ (h1 ++ (h2 ++ (h3 ++ (h4 ++ (h5 ++ (h6 ++ h7)))))) = (h0 ++ (h1 ++ (h2 ++ (h3 ++ (h4 ++ h5))))) ++ (h6 ++ h7) := by
  simp only [List.append_assoc]
theorem cut7 : h0 ++ (h1 ++ (h2 ++ (h3 ++ (h4 ++ (h5 ++ (h6 ++ h7)))))) = (h0 ++ (h1 ++ (h2 ++ (h3 ++ (h4 ++ (h5 ++ h6)))))) ++ h7 := by
  simp only [List.append_assoc]

/-- The first bag sum: diagnosis table, current codes. -/
theorem win_v1 (c : Dev nD) :
    V m c main_v1 = bagD (m ((c : Thread nD τ).loc main_arg4)) (m ((c : Thread nD τ).loc main_arg0)) := by
  rw [V_eq, StableHlo.after_append h0, StableHlo.after_append h1, after2_keeps_v1, sum1_read, take0_read]
  all_goals rfl

/-- The second: diagnosis table, previous codes. -/
theorem win_v3 (c : Dev nD) :
    V m c main_v3 = bagD (m ((c : Thread nD τ).loc main_arg4)) (m ((c : Thread nD τ).loc main_arg2)) := by
  obtain ⟨k4, k2⟩ := before2_keeps (L0 m c)
  rw [V_eq, cut2, StableHlo.after_append (h0 ++ h1), StableHlo.after_append h2, StableHlo.after_append h3, after4_keeps_v3,
    sum3_read, take2_read, k4, k2]
  all_goals rfl

/-- The third: procedure table, current codes. -/
theorem win_v5 (c : Dev nD) :
    V m c main_v5 = bagP (m ((c : Thread nD τ).loc main_arg5)) (m ((c : Thread nD τ).loc main_arg1)) := by
  obtain ⟨k5, k1⟩ := before4_keeps (L0 m c)
  rw [V_eq, cut4, StableHlo.after_append (h0 ++ (h1 ++ (h2 ++ h3))), StableHlo.after_append h4, StableHlo.after_append h5,
    after6_keeps_v5, sum5_read, take4_read, k5, k1]
  all_goals rfl

/-- What the stretches before the fourth gather leave in its operands: the launch contents (no stretch writes an argument,
    and neither does the fourth gather's own stretch or the last). -/
theorem before6 (c : Dev nD) :
    after (h0 ++ (h1 ++ (h2 ++ (h3 ++ (h4 ++ h5))))) (L0 m c) (main_arg5 : DevRef τ sig) = m ((c : Thread nD τ).loc main_arg5)
    ∧ after (h0 ++ (h1 ++ (h2 ++ (h3 ++ (h4 ++ h5))))) (L0 m c) (main_arg3 : DevRef τ sig) = m ((c : Thread nD τ).loc main_arg3) := by
  obtain ⟨t5, t3⟩ := tail6_keeps (after (h0 ++ (h1 ++ (h2 ++ (h3 ++ (h4 ++ h5))))) (L0 m c))
  have a5 := V_main_arg5 m c
  have a3 := V_main_arg3 m c
  rw [V_eq, cut6, StableHlo.after_append (h0 ++ (h1 ++ (h2 ++ (h3 ++ (h4 ++ h5))))), t5] at a5
  rw [V_eq, cut6, StableHlo.after_append (h0 ++ (h1 ++ (h2 ++ (h3 ++ (h4 ++ h5))))), t3] at a3
  exact ⟨a5, a3⟩

/-- The fourth: procedure table, previous codes. -/
theorem win_v7 (c : Dev nD) :
    V m c main_v7 = bagP (m ((c : Thread nD τ).loc main_arg5)) (m ((c : Thread nD τ).loc main_arg3)) := by
  obtain ⟨k5, k3⟩ := before6 m c
  rw [V_eq, cut6, StableHlo.after_append (h0 ++ (h1 ++ (h2 ++ (h3 ++ (h4 ++ h5))))), StableHlo.after_append h6, (last_read _).1,
    take6_read, k5, k3]
  all_goals rfl

/-- What the stretches before the last leave in the weights and biases: the launch contents. -/
theorem before7 (c : Dev nD) :
    after (h0 ++ (h1 ++ (h2 ++ (h3 ++ (h4 ++ (h5 ++ h6)))))) (L0 m c) (main_arg6 : DevRef τ sig) = m ((c : Thread nD τ).loc main_arg6)
    ∧ after (h0 ++ (h1 ++ (h2 ++ (h3 ++ (h4 ++ (h5 ++ h6)))))) (L0 m c) (main_arg7 : DevRef τ sig) = m ((c : Thread nD τ).loc main_arg7)
    ∧ after (h0 ++ (h1 ++ (h2 ++ (h3 ++ (h4 ++ (h5 ++ h6)))))) (L0 m c) (main_arg8 : DevRef τ sig) = m ((c : Thread nD τ).loc main_arg8)
    ∧ after (h0 ++ (h1 ++ (h2 ++ (h3 ++ (h4 ++ (h5 ++ h6)))))) (L0 m c) (main_arg9 : DevRef τ sig) = m ((c : Thread nD τ).loc main_arg9)
    ∧ after (h0 ++ (h1 ++ (h2 ++ (h3 ++ (h4 ++ (h5 ++ h6)))))) (L0 m c) (main_arg10 : DevRef τ sig) = m ((c : Thread nD τ).loc main_arg10)
    ∧ after (h0 ++ (h1 ++ (h2 ++ (h3 ++ (h4 ++ (h5 ++ h6)))))) (L0 m c) (main_arg11 : DevRef τ sig) = m ((c : Thread nD τ).loc main_arg11) := by
  obtain ⟨t6, t7, t8, t9, t10, t11⟩ := last_keeps (after (h0 ++ (h1 ++ (h2 ++ (h3 ++ (h4 ++ (h5 ++ h6)))))) (L0 m c))
  have a6 := V_main_arg6 m c
  have a7 := V_main_arg7 m c
  have a8 := V_main_arg8 m c
  have a9 := V_main_arg9 m c
  have a10 := V_main_arg10 m c
  have a11 := V_main_arg11 m c
  rw [V_eq, cut7, StableHlo.after_append (h0 ++ (h1 ++ (h2 ++ (h3 ++ (h4 ++ (h5 ++ h6)))))), t6] at a6
  rw [V_eq, cut7, StableHlo.after_append (h0 ++ (h1 ++ (h2 ++ (h3 ++ (h4 ++ (h5 ++ h6)))))), t7] at a7
  rw [V_eq, cut7, StableHlo.after_append (h0 ++ (h1 ++ (h2 ++ (h3 ++ (h4 ++ (h5 ++ h6)))))), t8] at a8
  rw [V_eq, cut7, StableHlo.after_append (h0 ++ (h1 ++ (h2 ++ (h3 ++ (h4 ++ (h5 ++ h6)))))), t9] at a9
  rw [V_eq, cut7, StableHlo.after_append (h0 ++ (h1 ++ (h2 ++ (h3 ++ (h4 ++ (h5 ++ h6)))))), t10] at a10
  rw [V_eq, cut7, StableHlo.after_append (h0 ++ (h1 ++ (h2 ++ (h3 ++ (h4 ++ (h5 ++ h6)))))), t11] at a11
  exact ⟨a6, a7, a8, a9, a10, a11⟩

/-- The weights transposed and the biases as rows. -/
theorem win_weights (c : Dev nD) :
    V m c main_v8 = transpose S256x128 [1, 0] (m ((c : Thread nD τ).loc main_arg6)) transposes_S128x256_S256x128_1_0
    ∧ V m c main_v11 = shapeCast S1x128 (m ((c : Thread nD τ).loc main_arg7)) shapeCasts_S128_S1x128
    ∧ V m c main_v9 = transpose S256x256 [1, 0] (m ((c : Thread nD τ).loc main_arg8)) transposes_S256x256_S256x256_1_0
    ∧ V m c main_v12 = shapeCast S1x256 (m ((c : Thread nD τ).loc main_arg9)) shapeCasts_S256_S1x256
    ∧ V m c main_v10 = transpose S256x1000 [1, 0] (m ((c : Thread nD τ).loc main_arg10)) transposes_S1000x256_S256x1000_1_0
    ∧ V m c main_v13 = shapeCast S1x1000 (m ((c : Thread nD τ).loc main_arg11)) shapeCasts_S1000_S1x1000 := by
  obtain ⟨k6, k7, k8, k9, k10, k11⟩ := before7 m c
  obtain ⟨-, r8, r9, r10, r11, r12, r13⟩ := last_read (after (h0 ++ (h1 ++ (h2 ++ (h3 ++ (h4 ++ (h5 ++ h6)))))) (L0 m c))
  refine ⟨?_, ?_, ?_, ?_, ?_, ?_⟩
  · rw [V_eq, cut7, StableHlo.after_append (h0 ++ (h1 ++ (h2 ++ (h3 ++ (h4 ++ (h5 ++ h6)))))), r8, k6]
  · rw [V_eq, cut7, StableHlo.after_append (h0 ++ (h1 ++ (h2 ++ (h3 ++ (h4 ++ (h5 ++ h6)))))), r11, k7]
  · rw [V_eq, cut7, StableHlo.after_append (h0 ++ (h1 ++ (h2 ++ (h3 ++ (h4 ++ (h5 ++ h6)))))), r9, k8]
  · rw [V_eq, cut7, StableHlo.after_append (h0 ++ (h1 ++ (h2 ++ (h3 ++ (h4 ++ (h5 ++ h6)))))), r12, k9]
  · rw [V_eq, cut7, StableHlo.after_append (h0 ++ (h1 ++ (h2 ++ (h3 ++ (h4 ++ (h5 ++ h6)))))), r10, k10]
  · rw [V_eq, cut7, StableHlo.after_append (h0 ++ (h1 ++ (h2 ++ (h3 ++ (h4 ++ (h5 ++ h6)))))), r13, k11]

end Cert.KernelIdeal.HostValue

end
-- ==== Proof.lean ====
/-
  Kernel and reference compute the same two-visit network.

  Both programs first take four bag sums on the host with the same operations: for each patient row, the sum of
  the 32 embedding rows its codes select (diagnosis and procedure tables, current and previous visit). The
  reference then applies, to the whole 16384-row arrays, three dense layers (the first to each visit's pair of bag
  sums laid end to end, the second to the two results laid end to end followed by the positive part, the third
  followed by the logistic function written as 1 / (1 + exp (−x))), each weight matrix transposed by the host and
  each bias spread over the rows. The kernel hands the same four bag sums, the transposed weights and the biases
  reshaped to one row to a pipelined region of eight points; each point computes the same three layers on its
  2048 rows with matrix-unit products into zero accumulators and the logistic function as one operation.

  Over the extended reals a matrix-unit product into a zero accumulator and a host product are the same finite sum
  over the contracted index, taken in the same order, and the logistic operation is 1 / (1 + exp (−x)) on every
  extended real; nothing in the network mixes rows. So entry (r, j) of either result is the one-row network of
  Spec.lean on row r of the four bag sums, and the two results agree entry by entry. No law that needs
  finiteness is used: the two sides are the same expression, so the precondition is never opened.
-/
import proofs.«426874_j84344567759287_3_alg».proof.Defs
import proofs.«426874_j84344567759287_3_alg».proof.Proof.Gen.Kernel
import proofs.«426874_j84344567759287_3_alg».proof.Proof.Gen.Kernel.Skeleton
import proofs.«426874_j84344567759287_3_alg».proof.Proof.Gen.Kernel.Launch
import proofs.«426874_j84344567759287_3_alg».proof.Proof.Gen.Kernel.Points
import proofs.«426874_j84344567759287_3_alg».proof.Proof.Gen.Kernel.Frame
import proofs.«426874_j84344567759287_3_alg».proof.Proof.Gen.KernelIdeal
import proofs.«426874_j84344567759287_3_alg».proof.Proof.Gen.KernelIdeal.Skeleton
import proofs.«426874_j84344567759287_3_alg».proof.Proof.Gen.KernelIdeal.Launch
import proofs.«426874_j84344567759287_3_alg».proof.Proof.Gen.KernelIdeal.Points
import proofs.«426874_j84344567759287_3_alg».proof.Proof.Gen.KernelIdeal.Frame
import proofs.«426874_j84344567759287_3_alg».proof.Proof.Gen.ReferenceIdeal
import proofs.«426874_j84344567759287_3_alg».proof.Proof.Gen.Pre_finite_inputs
import proofs.«426874_j84344567759287_3_alg».proof.Proof.KernelValue
import proofs.«426874_j84344567759287_3_alg».proof.Proof.KernelHost
import proofs.«426874_j84344567759287_3_alg».proof.Proof.RefValue
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.StableHlo Idealize.ShloMosaic.ValueIdx
open Cert.Spec Cert.RowOps

/-- The reference's result function and the kernel's result array, of the same arguments, are one array: entry
    (r, j) of each is the one-row network on row r of the same four bag sums with the same weights; a bias vector at
    j is its one-row reshape at (0, j). -/
theorem result_eq (idx0 idx1 idx2 idx3 : (⟨Cert.ReferenceIdeal.S16384x32, .i32⟩ : BufTy).Contents (Elt Ideal))
    (T4 : (⟨Cert.ReferenceIdeal.S100000x128, .f32⟩ : BufTy).Contents (Elt Ideal))
    (T5 : (⟨Cert.ReferenceIdeal.S50000x128, .f32⟩ : BufTy).Contents (Elt Ideal))
    (W1 : (⟨Cert.ReferenceIdeal.S128x256, .f32⟩ : BufTy).Contents (Elt Ideal))
    (b1 : (⟨Cert.ReferenceIdeal.S128, .f32⟩ : BufTy).Contents (Elt Ideal))
    (W2 : (⟨Cert.ReferenceIdeal.S256x256, .f32⟩ : BufTy).Contents (Elt Ideal))
    (b2 : (⟨Cert.ReferenceIdeal.S256, .f32⟩ : BufTy).Contents (Elt Ideal))
    (W3 : (⟨Cert.ReferenceIdeal.S1000x256, .f32⟩ : BufTy).Contents (Elt Ideal))
    (b3 : (⟨Cert.ReferenceIdeal.S1000, .f32⟩ : BufTy).Contents (Elt Ideal)) :
    Cert.ReferenceIdeal.RefValue.hostNet (F := Ideal)
        (Cert.ReferenceIdeal.RefValue.bagD T4 idx0) (Cert.ReferenceIdeal.RefValue.bagP T5 idx1)
        (Cert.ReferenceIdeal.RefValue.bagD T4 idx2) (Cert.ReferenceIdeal.RefValue.bagP T5 idx3) W1 b1 W2 b2 W3 b3
      = netArr (Cert.ReferenceIdeal.RefValue.bagD T4 idx0) (Cert.ReferenceIdeal.RefValue.bagP T5 idx1)
          (Cert.ReferenceIdeal.RefValue.bagD T4 idx2) (Cert.ReferenceIdeal.RefValue.bagP T5 idx3)
          (transpose Cert.KernelIdeal.S256x128 [1, 0] W1 Cert.KernelIdeal.Facts₀.transposes_S128x256_S256x128_1_0)
          (shapeCast Cert.KernelIdeal.S1x128 b1 Cert.KernelIdeal.Facts₀.shapeCasts_S128_S1x128)
          (transpose Cert.KernelIdeal.S256x256 [1, 0] W2 Cert.KernelIdeal.Facts₀.transposes_S256x256_S256x256_1_0)
          (shapeCast Cert.KernelIdeal.S1x256 b2 Cert.KernelIdeal.Facts₀.shapeCasts_S256_S1x256)
          (transpose Cert.KernelIdeal.S256x1000 [1, 0] W3 Cert.KernelIdeal.Facts₀.transposes_S1000x256_S256x1000_1_0)
          (shapeCast Cert.KernelIdeal.S1x1000 b3 Cert.KernelIdeal.Facts₀.shapeCasts_S1000_S1x1000) := by
  funext i
  obtain ⟨r, j, rfl⟩ : ∃ (r : Fin 16384) (j : Fin 1000), i = ix2 r j := ⟨_, _, eq_ix2_val i⟩
  rw [Cert.ReferenceIdeal.RefValue.hostNet_apply, netArr_apply]
  simp only [shapeCast_a_1a_apply]

theorem frame_k : Cert.frame_Kernel := fun m ρ _ => Cert.Kernel.Gen.frame m ρ
theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono (fun r h c => by
    obtain ⟨a0, a1, a2, a3, a4, a5, a6, a7, a8, a9, a10, a11⟩ :=
      Cert.ReferenceIdeal.RefValue.args_eq (F := Ideal) (launchContents m c)
    exact ⟨(h c _).trans a0, (h c _).trans a1, (h c _).trans a2, (h c _).trans a3, (h c _).trans a4, (h c _).trans a5,
      (h c _).trans a6, (h c _).trans a7, (h c _).trans a8, (h c _).trans a9, (h c _).trans a10, (h c _).trans a11⟩)
    (Cert.ReferenceIdeal.RefRun.run_main m ρ)

/-- From memories that agree on the arguments the two programs end with the same result array. -/
theorem algebraic : Cert.algebraic_KernelIdeal_ReferenceIdeal := by
  intro m ρ m' ρ' _ hagree
  refine ⟨fun c => Cert.KernelIdeal.ArrValue.outArr m c, Cert.KernelIdeal.ArrValue.run m ρ, ?_⟩
  refine (θ_run Cert.ReferenceIdeal.defs _ _).mono (fun r h c => ?_) (Cert.ReferenceIdeal.RefRun.run_main m' ρ')
  obtain ⟨a0, a1, a2, a3, a4, a5, a6, a7, a8, a9, a10, a11⟩ :=
    Cert.ReferenceIdeal.RefValue.args_eq (F := Ideal) (launchContents m' c)
  refine ⟨(h c Cert.ReferenceIdeal.main_v37).trans ?_, (h c _).trans a0, (h c _).trans a1, (h c _).trans a2, (h c _).trans a3,
    (h c _).trans a4, (h c _).trans a5, (h c _).trans a6, (h c _).trans a7, (h c _).trans a8, (h c _).trans a9,
    (h c _).trans a10, (h c _).trans a11⟩
  obtain ⟨g0, g1, g2, g3, g4, g5, g6, g7, g8, g9, g10, g11⟩ := hagree c
  have w1 := Cert.KernelIdeal.HostValue.win_v1 m c
  have w5 := Cert.KernelIdeal.HostValue.win_v5 m c
  have w3 := Cert.KernelIdeal.HostValue.win_v3 m c
  have w7 := Cert.KernelIdeal.HostValue.win_v7 m c
  obtain ⟨w8, w11, w9, w12, w10, w13⟩ := Cert.KernelIdeal.HostValue.win_weights m c
  rw [Cert.ReferenceIdeal.RefValue.out_eq]
  unfold Cert.KernelIdeal.ArrValue.outArr
  beta_reduce
  rw [w1, w5, w3, w7, w8, w11, w9, w12, w10, w13]
  unfold Cert.ReferenceIdeal.RefValue.refOut
  show Cert.ReferenceIdeal.RefValue.hostNet (F := Ideal)
      (Cert.ReferenceIdeal.RefValue.bagD (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg0)))
      (Cert.ReferenceIdeal.RefValue.bagP (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg1)))
      (Cert.ReferenceIdeal.RefValue.bagD (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg2)))
      (Cert.ReferenceIdeal.RefValue.bagP (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg3)))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) = _
  rw [g0, g1, g2, g3, g4, g5, g6, g7, g8, g9, g10, g11]
  exact result_eq _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
